-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16777216 : Shape := ⟨2, ![2, 16777216]⟩
abbrev S16777216 : Shape := ⟨1, ![16777216]⟩
abbrev S_ : Shape := ⟨0, ![]⟩

class Facts : Prop where
  bcast_S_S2x16777216 : S_.BroadcastsInDim S2x16777216 (![] : Fin 0 → Fin S2x16777216.rank)
  reducesTo_S2x16777216_S_d0_1 : S2x16777216.ReducesTo [0, 1] S_
  h_S_ : 0 < S_.numel
  bcast_S_S16777216 : S_.BroadcastsInDim S16777216 (![] : Fin 0 → Fin S16777216.rank)
  reducesTo_S16777216_S_d0 : S16777216.ReducesTo [0] S_

variable [Facts]

def fn {F : FTy → Type} [FloatOps F] (main_arg0 : FVec F S2x16777216 .f32) (main_arg1 : IVec S16777216 32) : IVec S_ 1 :=
  let main_v0 : FVec F S2x16777216 .f32 := Host.absf main_arg0
  let main_cst : FVec F S_ .f32 := constant S_ .f32 0x7F800000#32
  let main_v1 : FVec F S2x16777216 .f32 := broadcastInDim S2x16777216 ![] bcast_S_S2x16777216 main_cst
  let main_v2 : IVec S2x16777216 1 := cmpf .olt main_v0 main_v1
  let main_c : IVec S_ 1 := constantI S_ 1 1#1
  let main_v3 : IVec S_ 1 := (fun x v => Host.reduce IntOp.andi x v reducesTo_S2x16777216_S_d0_1 h_S_) main_v2 main_c
  let main_c_0 : IVec S_ 32 := constantI S_ 32 0#32
  let main_v4 : IVec S16777216 32 := broadcastInDim S16777216 ![] bcast_S_S16777216 main_c_0
  let main_v5 : IVec S16777216 1 := cmpi .sge main_arg1 main_v4
  let main_c_1 : IVec S_ 32 := constantI S_ 32 2#32
  let main_v6 : IVec S16777216 32 := broadcastInDim S16777216 ![] bcast_S_S16777216 main_c_1
  let main_v7 : IVec S16777216 1 := cmpi .slt main_arg1 main_v6
  let main_v8 : IVec S16777216 1 := andi main_v5 main_v7
  let main_c_2 : IVec S_ 1 := constantI S_ 1 1#1
  let main_v9 : IVec S_ 1 := (fun x v => Host.reduce IntOp.andi x v reducesTo_S16777216_S_d0 h_S_) main_v8 main_c_2
  let main_v10 : IVec S_ 1 := andi main_v3 main_v9
  main_v10
-- ==== Kernel.lean ====
abbrev S2x16777216 : Shape := ⟨2, ![2, 16777216]⟩
abbrev S16777216 : Shape := ⟨1, ![16777216]⟩
abbrev S2x32768x512 : Shape := ⟨3, ![2, 32768, 512]⟩
abbrev S32768x512 : Shape := ⟨2, ![32768, 512]⟩
abbrev S2x1x128 : Shape := ⟨3, ![2, 1, 128]⟩
abbrev S2x2048x512 : Shape := ⟨3, ![2, 2048, 512]⟩
abbrev S2048x512 : Shape := ⟨2, ![2048, 512]⟩
abbrev S1x1x128 : Shape := ⟨3, ![1, 1, 128]⟩
abbrev S1x512 : Shape := ⟨2, ![1, 512]⟩
abbrev S1x2048x512 : Shape := ⟨3, ![1, 2048, 512]⟩
abbrev S512 : Shape := ⟨1, ![512]⟩
abbrev S1 : Shape := ⟨1, ![1]⟩
abbrev S1x1 : Shape := ⟨2, ![1, 1]⟩
abbrev S1x1x1 : Shape := ⟨3, ![1, 1, 1]⟩
abbrev S2x1x1 : Shape := ⟨3, ![2, 1, 1]⟩
abbrev S2 : Shape := ⟨1, ![2]⟩
abbrev S_ : Shape := ⟨0, ![]⟩

abbrev nBuf : Space → Nat
  | .hbm => 9
  | .vmem => 7
  | .smem => 0
  | _ => 0

abbrev bufTy : (tb : Table) → Fin (tcTables nBuf tb) → BufTy
  | .hbm, ⟨0, _⟩ => ⟨S2x16777216, .f32⟩
  | .hbm, ⟨1, _⟩ => ⟨S16777216, .i32⟩
  | .hbm, ⟨2, _⟩ => ⟨S2x32768x512, .f32⟩
  | .hbm, ⟨3, _⟩ => ⟨S32768x512, .i32⟩
  | .hbm, ⟨4, _⟩ => ⟨S2x1x128, .f32⟩
  | .hbm, ⟨5, _⟩ => ⟨S2x1x1, .f32⟩
  | .hbm, ⟨6, _⟩ => ⟨S2, .f32⟩
  | .hbm, ⟨7, _⟩ => ⟨S_, .f32⟩
  | .hbm, ⟨8, _⟩ => ⟨S_, .f32⟩
  | .local _ .vmem, ⟨0, _⟩ => ⟨S2x2048x512, .f32⟩
  | .local _ .vmem, ⟨1, _⟩ => ⟨S2x2048x512, .f32⟩
  | .local _ .vmem, ⟨2, _⟩ => ⟨S2048x512, .i32⟩
  | .local _ .vmem, ⟨3, _⟩ => ⟨S2048x512, .i32⟩
  | .local _ .vmem, ⟨4, _⟩ => ⟨S1x1x128, .f32⟩
  | .local _ .vmem, ⟨5, _⟩ => ⟨S1x1x128, .f32⟩
  | .local _ .vmem, ⟨6, _⟩ => ⟨S1x512, .f32⟩
  | _, _ => ⟨S2x16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v35 : BitVec 1 := Scalar.cmpi .eq arg1 c7_i32
  let v36 : BitVec 32 := Scalar.extui v35
  let c0_i32_16 : BitVec 32 := 0#32
  let v37 : BitVec 1 := Scalar.cmpi .ne v36 c0_i32_16
  v37

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S2x16777216_S2x32768x512 : S2x16777216.ShapeCasts S2x32768x512
  shapeCasts_S16777216_S32768x512 : S16777216.ShapeCasts S32768x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S2x2048x512_S1x2048x512_0_0_0 : ∀ a, (![0, 0, 0] : Fin 3 → Nat) a + S1x2048x512.size a ≤ S2x2048x512.size a
  h_S1x2048x512 : 0 < S1x2048x512.numel
  shapeCasts_S1x2048x512_S2048x512 : S1x2048x512.ShapeCasts S2048x512
  inb_S2x2048x512_S1x2048x512_1_0_0 : ∀ a, (![1, 0, 0] : Fin 3 → Nat) a + S1x2048x512.size a ≤ S2x2048x512.size a
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  reduces_S2048x512_S512 : S2048x512.Reduces [0] S512
  shapeCasts_S512_S1x512 : S512.ShapeCasts S1x512
  reduces_S1x512_S1 : S1x512.Reduces [1] S1
  shapeCasts_S1_S1x1 : S1.ShapeCasts S1x1
  shapeCasts_S1x1_S1x1x1 : S1x1.ShapeCasts S1x1x1
  broadcasts_S1x1x1_S1x1x128 : S1x1x1.Broadcasts S1x1x128
  inb_S1x1x128_S1x1x128_0_0_0 : ∀ a, (![0, 0, 0] : Fin 3 → Nat) a + S1x1x128.size a ≤ S1x1x128.size a
  h_S1x1x128 : 0 < S1x1x128.numel
  slices_S2x1x128_S2x1x1_0_0_0 : S2x1x128.Slices ![0, 0, 0] S2x1x1
  shapeCasts_S2x1x1_S2 : S2x1x1.ShapeCasts S2
  reducesTo_S2_S_d0 : S2.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x2048x512.size a ≤ S2x32768x512.size a
  hwx0_0 : ∀ i : grid0.Coords, EltTy.bits .f32 = 32 ∨ (Rect.block (s := S2x32768x512) S2x2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S32768x512.size a
  hwx0_1 : ∀ i : grid0.Coords, EltTy.bits .i32 = 32 ∨ (Rect.block (s := S32768x512) S2048x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S2x1x128.size a
  hwx0_2 : ∀ i : grid0.Coords, EltTy.bits .f32 = 32 ∨ (Rect.block (s := S2x1x128) S1x1x128.size (cc0_transform_2 i) (hinb0_2 i)).WholeWords (EltTy.packing .f32)

variable [Facts₀]

abbrev win0_0 : Pipeline.Window sig grid0 :=
  Pipeline.Window.ofSpec (Memref.whole main_v0) S2x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2x16777216 : Shape := ⟨2, ![2, 16777216]⟩
abbrev S16777216 : Shape := ⟨1, ![16777216]⟩
abbrev S_ : Shape := ⟨0, ![]⟩
abbrev S16777216x1 : Shape := ⟨2, ![16777216, 1]⟩
abbrev S16777216x2 : Shape := ⟨2, ![16777216, 2]⟩

abbrev nBuf : Space → Nat
  | .hbm => 66
  | .vmem => 0
  | .smem => 0
  | _ => 0

abbrev bufTy : (tb : Table) → Fin (tcTables nBuf tb) → BufTy
  | .hbm, ⟨0, _⟩ => ⟨S2x16777216, .f32⟩
  | .hbm, ⟨1, _⟩ => ⟨S16777216, .i32⟩
  | .hbm, ⟨2, _⟩ => ⟨S16777216, .i32⟩
  | .hbm, ⟨3, _⟩ => ⟨S_, .i32⟩
  | .hbm, ⟨4, _⟩ => ⟨S16777216, .i32⟩
  | .hbm, ⟨5, _⟩ => ⟨S16777216, .i1⟩
  | .hbm, ⟨6, _⟩ => ⟨S_, .i32⟩
  | .hbm, ⟨7, _⟩ => ⟨S16777216, .i32⟩
  | .hbm, ⟨8, _⟩ => ⟨S16777216, .i32⟩
  | .hbm, ⟨9, _⟩ => ⟨S16777216, .i32⟩
  | .hbm, ⟨10, _⟩ => ⟨S_, .i32⟩
  | .hbm, ⟨11, _⟩ => ⟨S16777216, .i32⟩
  | .hbm, ⟨12, _⟩ => ⟨S16777216, .i1⟩
  | .hbm, ⟨13, _⟩ => ⟨S_, .i32⟩
  | .hbm, ⟨14, _⟩ => ⟨S16777216, .i32⟩
  | .hbm, ⟨15, _⟩ => ⟨S16777216, .i32⟩
  | .hbm, ⟨16, _⟩ => ⟨S16777216, .i32⟩
  | .hbm, ⟨17, _⟩ => ⟨S16777216x1, .i32⟩
  | .hbm, ⟨18, _⟩ => ⟨S16777216x1, .i32⟩
  | .hbm, ⟨19, _⟩ => ⟨S16777216x2, .i32⟩
  | .hbm, ⟨20, _⟩ => ⟨S16777216, .f32⟩
  | .hbm, ⟨21, _⟩ => ⟨S_, .i32⟩
  | .hbm, ⟨22, _⟩ => ⟨S16777216, .i32⟩
  | .hbm, ⟨23, _⟩ => ⟨S16777216, .i32⟩
  | .hbm, ⟨24, _⟩ => ⟨S_, .i32⟩
  | .hbm, ⟨25, _⟩ => ⟨S16777216, .i32⟩
  | .hbm, ⟨26, _⟩ => ⟨S16777216, .i1⟩
  | .hbm, ⟨27, _⟩ => ⟨S_, .i32⟩
  | .hbm, ⟨28, _⟩ => ⟨S16777216, .i32⟩
  | .hbm, ⟨29, _⟩ => ⟨S16777216, .i32⟩
  | .hbm, ⟨30, _⟩ => ⟨S16777216, .i32⟩
  | .hbm, ⟨31, _⟩ => ⟨S_, .i32⟩
  | .hbm, ⟨32, _⟩ => ⟨S16777216, .i32⟩
  | .hbm, ⟨33, _⟩ => ⟨S16777216, .i1⟩
  | .hbm, ⟨34, _⟩ => ⟨S_, .i32⟩
  | .hbm, ⟨35, _⟩ => ⟨S16777216, .i32⟩
  | .hbm, ⟨36, _⟩ => ⟨S16777216, .i32⟩
  | .hbm, ⟨37, _⟩ => ⟨S16777216, .i32⟩
  | .hbm, ⟨38, _⟩ => ⟨S16777216x1, .i32⟩
  | .hbm, ⟨39, _⟩ => ⟨S16777216x1, .i32⟩
  | .hbm, ⟨40, _⟩ => ⟨S16777216x2, .i32⟩
  | .hbm, ⟨41, _⟩ => ⟨S16777216, .f32⟩
  | .hbm, ⟨42, _⟩ => ⟨S_, .f32⟩
  | .hbm, ⟨43, _⟩ => ⟨S16777216, .f32⟩
  | .hbm, ⟨44, _⟩ => ⟨S16777216, .f32⟩
  | .hbm, ⟨45, _⟩ => ⟨S16777216, .f32⟩
  | .hbm, ⟨46, _⟩ => ⟨S_, .f32⟩
  | .hbm, ⟨47, _⟩ => ⟨S16777216, .f32⟩
  | .hbm, ⟨48, _⟩ => ⟨S16777216, .f32⟩
  | .hbm, ⟨49, _⟩ => ⟨S16777216, .f32⟩
  | .hbm, ⟨50, _⟩ => ⟨S_, .f32⟩
  | .hbm, ⟨51, _⟩ => ⟨S16777216, .f32⟩
  | .hbm, ⟨52, _⟩ => ⟨S16777216, .f32⟩
  | .hbm, ⟨53, _⟩ => ⟨S16777216, .f32⟩
  | .hbm, ⟨54, _⟩ => ⟨S16777216, .f32⟩
  | .hbm, ⟨55, _⟩ => ⟨S16777216, .i1⟩
  | .hbm, ⟨56, _⟩ => ⟨S16777216, .f32⟩
  | .hbm, ⟨57, _⟩ => ⟨S16777216, .f32⟩
  | .hbm, ⟨58, _⟩ => ⟨S16777216, .f32⟩
  | .hbm, ⟨59, _⟩ => ⟨S16777216, .f32⟩
  | .hbm, ⟨60, _⟩ => ⟨S16777216, .f32⟩
  | .hbm, ⟨61, _⟩ => ⟨S16777216, .f32⟩
  | .hbm, ⟨62, _⟩ => ⟨S16777216, .f32⟩
  | .hbm, ⟨63, _⟩ => ⟨S16777216, .f32⟩
  | .hbm, ⟨64, _⟩ => ⟨S_, .f32⟩
  | .hbm, ⟨65, _⟩ => ⟨S_, .f32⟩
  | _, _ => ⟨S2x16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_v6 : Ref sig .tc := ⟨.hbm, 11, rfl⟩
abbrev main_v7 : Ref sig .tc := ⟨.hbm, 12, rfl⟩
abbrev main_c_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_3 : Ref sig .tc := ⟨.hbm, 21, rfl⟩
abbrev main_v15 : Ref sig .tc := ⟨.hbm, 22, rfl⟩
abbrev main_v16 : Ref sig .tc := ⟨.hbm, 23, rfl⟩
abbrev main_c_4 : Ref sig .tc := ⟨.hbm, 24, rfl⟩
abbrev main_v17 : Ref sig .tc := ⟨.hbm, 25, rfl⟩
abbrev main_v18 : Ref sig .tc := ⟨.hbm, 26, rfl⟩
abbrev main_c_5 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_6 : Ref sig .tc := ⟨.hbm, 31, rfl⟩
abbrev main_v22 : Ref sig .tc := ⟨.hbm, 32, rfl⟩
abbrev main_v23 : Ref sig .tc := ⟨.hbm, 33, rfl⟩
abbrev main_c_7 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_8 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_10 : Ref sig .tc := ⟨.hbm, 64, rfl⟩
abbrev main_v50 : Ref sig .tc := ⟨.hbm, 65, rfl⟩

abbrev nD : Nat := 1
abbrev τ : Topo := Topo.v7x

variable {F : FTy → Type} [FloatOps F]

class Facts₀ : Prop where
  bcast_S_S16777216 : S_.BroadcastsInDim S16777216 (![] : Fin 0 → Fin S16777216.rank)
  bcast_S16777216_S16777216x1_0 : S16777216.BroadcastsInDim S16777216x1 (![0] : Fin 1 → Fin S16777216x1.rank)
  concatenates_S16777216x1_S16777216x1_S16777216x2_d1 : Shape.Concatenates [S16777216x1, S16777216x1] S16777216x2 1
  reducesTo_S16777216_S_d0 : S16777216.ReducesTo [0] S_
  h_S_ : 0 < S_.numel
  gather_S2x16777216_S16777216x2_S16777216_n_01_n_n_01_1_11_wf : GatherDims.WF S2x16777216 S16777216x2 S16777216 [] [0, 1] [] [0, 1] [] 1 ![1, 1]

variable [Facts₀]

def gather_S2x16777216_S16777216x2_S16777216_n_01_n_n_01_1_11 : GatherDims S2x16777216 S16777216x2 S16777216 where
  offsetDims := []
  collapsedSliceDims := [0, 1]
  operandBatchingDims := []
  startIndicesBatchingDims := []
  startIndexMap := [0, 1]
  indexVectorDim := 1
  sliceSizes := ![1, 1]
  wf := gather_S2x16777216_S16777216x2_S16777216_n_01_n_n_01_1_11_wf

class Facts : Prop extends Facts₀ where

variable [Facts]
-- ==== Proof.PreFacts.lean ====
/-
  What the precondition says of the two inputs.

  The precondition is the conjunction of two "for all" statements, each written as a reduction by `and` from the
  constant 1 into a result with a single index: every distance `x` has `|x| < +∞`, and every label `w` has
  `0 ≤ w` and `w < 2` as signed words.  When the conjunction is 1 both reductions are 1, so every element of each
  compared array is 1.  On the extended reals `|x| = max x (-x)`, which is `⊤` at both `⊥` and `⊤`; so `|x| < ⊤`
  leaves only the real numbers.  A signed word between 0 and 2 is the word 0 or the word 1.
-/
import proofs.«402410_j9878424781365_3_alg».proof.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.PreFacts

open Idealize.ShloMosaic Idealize.ShloMosaic.ValueIdx

variable [Cert.Pre_finite_inputs.Facts]

/-- The result of a reduction over every axis has rank 0, hence exactly one index. -/
instance subsingleton_scalarIdx : Subsingleton Cert.Pre_finite_inputs.S_.Idx :=
  ⟨fun a b => funext fun d => d.elim0⟩

/-- The pattern with all exponent bits set, sign and fraction clear, denotes `+∞`. -/
theorem ofBits_inf : Ideal.ofBits .f32 0x7F800000#32 = (⊤ : EReal) := by
  simp [Ideal.ofBits, Ideal.ieee]

/-- A one-bit word made from a Boolean is 1 exactly when the Boolean is true. -/
theorem ofBool_eq_one {b : Bool} : BitVec.ofBool b = 1#1 ↔ b = true := by cases b <;> decide

/-- An extended real whose absolute value `max x (-x)` is below `⊤` is a real number. -/
theorem real_of_abs_lt_top (x : EReal) (hx : max x (-x) < ⊤) : ∃ r : ℝ, x = (r : EReal) := by
  induction x using EReal.rec with
  | bot => exact absurd hx (by simp)
  | coe r => exact ⟨r, rfl⟩
  | top => exact absurd hx (by simp)

/-- A 32-bit word that is at least 0 and below 2, read signed, is the word 0 or the word 1. -/
theorem word_zero_or_one (w : BitVec 32) (hge : (0#32 : BitVec 32).toInt ≤ w.toInt) (hlt : w.toInt < (2#32 : BitVec 32).toInt) :
    w = 0#32 ∨ w = 1#32 := by
  have e0 : (0#32 : BitVec 32).toInt = 0 := by decide
  have e1 : (1#32 : BitVec 32).toInt = 1 := by decide
  have e2 : (2#32 : BitVec 32).toInt = 2 := by decide
  rw [e0] at hge
  rw [e2] at hlt
  rcases (by omega : w.toInt = 0 ∨ w.toInt = 1) with hw | hw
  · exact Or.inl (BitVec.eq_of_toInt_eq (hw.trans e0.symm))
  · exact Or.inr (BitVec.eq_of_toInt_eq (hw.trans e1.symm))

/-- Under the precondition every distance is a real number. -/
theorem finite_of_pre (x0 : FVec Ideal Cert.Pre_finite_inputs.S2x16777216 .f32) (x1 : IVec Cert.Pre_finite_inputs.S16777216 32)
    (h : Cert.Pre_finite_inputs.fn (F := Ideal) x0 x1 = fun _ => 1#1) : ∀ i, ∃ r : ℝ, x0 i = (r : EReal) := by
  intro i
  have h0 := congrFun h ValueIdx.ix0
  dsimp only [Cert.Pre_finite_inputs.fn] at h0
  -- the conjunction of the two reductions is 1: so is the first
  have h1 := (IntOp.andi_eq_one.1 h0).1
  -- every element of the compared array is 1
  have h2 := Host.reduce_andi_all _ _ _ _ _ h1 i
  -- the element at `i` compares `|x0 i|` with the denotation of the `+∞` pattern
  change Ideal.cmp .olt (max (x0 i) (-(x0 i))) (Ideal.ofBits .f32 0x7F800000#32) = 1#1 at h2
  rw [ofBits_inf] at h2
  exact real_of_abs_lt_top (x0 i) (of_decide_eq_true (ofBool_eq_one.1 h2))

/-- Under the precondition every label is the word 0 or the word 1. -/
theorem labels_of_pre (x0 : FVec Ideal Cert.Pre_finite_inputs.S2x16777216 .f32) (x1 : IVec Cert.Pre_finite_inputs.S16777216 32)
    (h : Cert.Pre_finite_inputs.fn (F := Ideal) x0 x1 = fun _ => 1#1) : ∀ j : Fin 16777216, x1 (ix1 j) = 0#32 ∨ x1 (ix1 j) = 1#32 := by
  intro j
  have h0 := congrFun h ValueIdx.ix0
  dsimp only [Cert.Pre_finite_inputs.fn] at h0
  -- the conjunction of the two reductions is 1: so is the second
  have h1 := (IntOp.andi_eq_one.1 h0).2
  -- every element of the reduced array is 1
  have h2 := Host.reduce_andi_all _ _ _ _ _ h1 (ix1 j)
  -- the element at `j` is the conjunction of the two signed comparisons of the label with 0 and with 2
  change IntOp.andi (IntOp.cmpi .sge (x1 (ix1 j)) 0#32) (IntOp.cmpi .slt (x1 (ix1 j)) 2#32) = 1#1 at h2
  obtain ⟨hge, hlt⟩ := IntOp.andi_eq_one.1 h2
  exact word_zero_or_one _ (IntOp.cmpi_sge.1 hge) (IntOp.cmpi_slt.1 hlt)

end Cert.PreFacts

end
-- ==== Proof.LossLaw.lean ====
/-
  One sample of the margin loss, on the extended reals.

  With `lp = a · cos (p + h)` (the positive logit) and `ln = a · cos n` (the negative logit) the loss of a sample is
  `log (1 + exp (ln - lp))`.  The two programs spell it differently:

  * the softplus form takes `z = a · (cos n - cos (p + h))` and returns `max z 0 + log1p (exp (0 - |z|))`;
  * the log-add-exp form returns `(max lp ln + log1p (exp (-|lp - ln|))) - lp`.

  For REAL `a, h, p, n` the cosines are real, so `a` distributes over their difference (`z = ln - lp`), the two
  absolute values agree (`|lp - ln| = |z|`), and `max lp ln - lp = max 0 (ln - lp) = max z 0`: the two forms are one
  real number.  At an infinite `p` or `n` the cosine has no value and nothing is claimed.
-/
import Idealize.ShloMosaic.PureOps.Ideal
import Idealize.ShloMosaic.PureOps.Ideal.Laws

noncomputable section

namespace Cert.Loss

open Idealize.ShloMosaic

/-- The softplus form of one sample's loss: scale `a`, margin `h`, positive distance `p`, negative distance `n`. -/
def softplusForm (a h p n : EReal) : EReal :=
  max (a * (Ideal.cos n - Ideal.cos (p + h))) 0
    + Ideal.log1p (Ideal.exp (0 - max (a * (Ideal.cos n - Ideal.cos (p + h))) (-(a * (Ideal.cos n - Ideal.cos (p + h))))))

/-- The log-add-exp form of the same loss. -/
def logAddExpForm (a h p n : EReal) : EReal :=
  (max (a * Ideal.cos (p + h)) (a * Ideal.cos n)
    + Ideal.log1p (Ideal.exp (-(max (a * Ideal.cos (p + h) - a * Ideal.cos n) (-(a * Ideal.cos (p + h) - a * Ideal.cos n))))))
    - a * Ideal.cos (p + h)

/-- The coercion of the reals into the extended reals is monotone, so it carries `max` to `max`. -/
theorem coe_max (x y : ℝ) : ((max x y : ℝ) : EReal) = max (x : EReal) (y : EReal) :=
  EReal.coe_strictMono.monotone.map_max

/-- `log1p (exp r)` at a real `r` is the real `log (1 + e^r)`: the argument of the logarithm is positive. -/
theorem log1p_exp_coe (r : ℝ) : Ideal.log1p (Ideal.exp (r : EReal)) = ((Real.log (1 + Real.exp r) : ℝ) : EReal) := by
  have hpos : ¬ (1 + Real.exp r ≤ 0) := not_le.mpr (by positivity)
  rw [Ideal.exp_coe, Ideal.log1p, ← EReal.coe_one, ← EReal.coe_add, Ideal.log_coe, if_neg hpos]

/-- The softplus form at real arguments is a real number. -/
theorem softplusForm_coe (a h p n : ℝ) :
    softplusForm a h p n
      = ((max (a * (Real.cos n - Real.cos (p + h))) 0
          + Real.log (1 + Real.exp (-(max (a * (Real.cos n - Real.cos (p + h))) (-(a * (Real.cos n - Real.cos (p + h))))))) : ℝ) : EReal) := by
  unfold softplusForm
  rw [← EReal.coe_add p h, Ideal.cos_coe, Ideal.cos_coe, ← EReal.coe_sub, ← EReal.coe_mul, ← EReal.coe_neg, ← coe_max,
    zero_sub, ← EReal.coe_neg, log1p_exp_coe, ← EReal.coe_zero, ← coe_max, ← EReal.coe_add]

/-- The log-add-exp form at real arguments is a real number. -/
theorem logAddExpForm_coe (a h p n : ℝ) :
    logAddExpForm a h p n
      = ((max (a * Real.cos (p + h)) (a * Real.cos n)
          + Real.log (1 + Real.exp (-(max (a * Real.cos (p + h) - a * Real.cos n) (-(a * Real.cos (p + h) - a * Real.cos n)))))
          - a * Real.cos (p + h) : ℝ) : EReal) := by
  unfold logAddExpForm
  rw [← EReal.coe_add p h, Ideal.cos_coe, Ideal.cos_coe, ← EReal.coe_mul, ← EReal.coe_mul, ← EReal.coe_sub, ← EReal.coe_neg,
    ← coe_max, ← coe_max, ← EReal.coe_neg, log1p_exp_coe, ← EReal.coe_add, ← EReal.coe_sub]

/-- The two forms are one number at real arguments. -/
theorem softplusForm_eq_logAddExpForm (a h p n : ℝ) : softplusForm a h p n = logAddExpForm a h p n := by
  rw [softplusForm_coe, logAddExpForm_coe]
  congr 1
  have hz : a * Real.cos (p + h) - a * Real.cos n = -(a * (Real.cos n - Real.cos (p + h))) := by ring
  have hmax : max (a * Real.cos (p + h)) (a * Real.cos n) - a * Real.cos (p + h)
      = max (a * (Real.cos n - Real.cos (p + h))) 0 := by
    rw [← max_sub_sub_right, sub_self, max_comm]
    congr 1
    ring
  rw [hz, neg_neg, max_comm (-(a * (Real.cos n - Real.cos (p + h)))), ← hmax]
  ring

/-! ## The three constants the programs spell -/

/-- The pattern of `64.0` denotes the real `64`. -/
theorem ofBits_scale : Ideal.ofBits .f32 0x42800000#32 = ((64 : ℝ) : EReal) := by
  simp [Ideal.ofBits, Ideal.ieee, -EReal.coe_mul]; norm_num

/-- The pattern of `0.5` denotes the real `1/2`. -/
theorem ofBits_margin : Ideal.ofBits .f32 0x3F000000#32 = ((1 / 2 : ℝ) : EReal) := by
  simp [Ideal.ofBits, Ideal.ieee, -EReal.coe_mul]; norm_num

/-- The pattern of `+0.0` denotes `0`. -/
theorem ofBits_zero : Ideal.ofBits .f32 0x00000000#32 = 0 := Ideal.ofBits_zero_f32

end Cert.Loss

end
-- ==== Proof.SampleLoss.lean ====
/-
  One sample's loss as a function of the sample's two distances and its label.

  The positive distance of a sample is the distance in the row its label names, the negative distance the one in the
  other row; a label is 0 or 1, and "the label is 0" decides which row is which.  The loss is the softplus form of
  the margin loss at scale 64 and margin 1/2 (the constants as the programs spell them, by their bit patterns).
  At real distances it is also the log-add-exp form: the law that joins the two programs.
-/
import proofs.«402410_j9878424781365_3_alg».proof.Proof.LossLaw

noncomputable section

namespace Cert.Loss

open Idealize.ShloMosaic

/-- The loss of a sample with distances `d0` (row 0) and `d1` (row 1) and label `lbl`. -/
def sampleLoss (d0 d1 : EReal) (lbl : BitVec 32) : EReal :=
  softplusForm (Ideal.ofBits .f32 0x42800000#32) (Ideal.ofBits .f32 0x3F000000#32)
    (if lbl = 0#32 then d0 else d1) (if lbl = 0#32 then d1 else d0)

/-- At real distances the sample's loss is the log-add-exp form of the same positive and negative distances. -/
theorem sampleLoss_eq_logAddExpForm (d0 d1 : ℝ) (lbl : BitVec 32) :
    sampleLoss d0 d1 lbl
      = logAddExpForm (Ideal.ofBits .f32 0x42800000#32) (Ideal.ofBits .f32 0x3F000000#32)
          (if lbl = 0#32 then (d0 : EReal) else d1) (if lbl = 0#32 then (d1 : EReal) else d0) := by
  unfold sampleLoss
  rw [ofBits_scale, ofBits_margin]
  split
  · exact softplusForm_eq_logAddExpForm _ _ _ _
  · exact softplusForm_eq_logAddExpForm _ _ _ _

end Cert.Loss

end
-- ==== Proof.Spec.lean ====
/-
  What both programs compute: the sum, over the 16,777,216 samples, of each sample's loss.

  Sample `j` has distances `dist[0, j]` and `dist[1, j]` and label `label[j]`; its loss is `Cert.Loss.sampleLoss` of
  them.  Both programs start their final sum from the zero constant, so each returns `0 + total dist label`.
-/
import proofs.«402410_j9878424781365_3_alg».proof.Proof.SampleLoss
import Idealize.ShloMosaic.Lib.ValueIdx

noncomputable section

namespace Cert.Spec

open Idealize.ShloMosaic Idealize.ShloMosaic.ValueIdx

/-- The total loss of the distances `dist : [2, 16777216]` and labels `label : [16777216]`. -/
def total (dist : (⟨2, ![2, 16777216]⟩ : Shape).Idx → EReal) (label : (⟨1, ![16777216]⟩ : Shape).Idx → BitVec 32) : EReal :=
  ∑ j : Fin 16777216, Cert.Loss.sampleLoss (dist (ix2 (0 : Fin 2) j)) (dist (ix2 (1 : Fin 2) j)) (label (ix1 j))

end Cert.Spec

end
-- ==== Proof.RefTotal.lean ====
/-
  The reference program's result is the zero constant plus the total loss.

  The program sums, over the 16,777,216 samples, one element per sample, starting from the zero constant. At sample `j`
  the element is built from two distances gathered out of the [2, 16777216] table:

  * the POSITIVE distance, read at the start vector (label j, j): the row the sample's label names;
  * the NEGATIVE distance, read at (1 - label j, j): the other row.

  Each component of a start vector passes a wrap-around normalisation (a negative word has the axis extent added) and the
  gather's signed clamp into the axis. A label is 0 or 1 and a position is below 2²⁴, so every component is non-negative
  and inside its axis: both steps leave it as it is, and the two reads are `dist[label j, j]` and `dist[1 - label j, j]`.

  From the two distances the element is, operation by operation, the log-add-exp form of the margin loss at scale 64 and
  margin 1/2; its guard `d ≠ d` is false of every extended real, so the select keeps that branch. At real distances the
  log-add-exp form is the sample's loss (`Cert.Loss.sampleLoss_eq_logAddExpForm`), whichever row the label names, and
  the sum over the rank-1 index set is the sum over the positions.
-/
import proofs.«402410_j9878424781365_3_alg».proof.Proof.Gen.ReferenceIdeal.Read
import proofs.«402410_j9878424781365_3_alg».proof.Proof.Spec
import Idealize.ShloMosaic.Lib.Pipeline.Value
import Idealize.ShloMosaic.Lib.ValueIdx
import Idealize.ShloMosaic.Lib.ValueIdxRank1
import Idealize.ShloMosaic.Lib.StableHlo.Predicate

noncomputable section

namespace Cert.ReferenceIdeal.RefValue

open Cert.ReferenceIdeal Cert.ReferenceIdeal.Read Idealize.ShloMosaic Idealize.ShloMosaic.ValueIdx

/-! ## The gather at a sample -/

/-- The gather of the program read at sample `j`: both operand axes are collapsed and start-indexed, so the element is the
    operand at the start vector `(idx[j, 0], idx[j, 1])`, each component read signed and clamped into its axis. -/
theorem gather_pair_apply {α : Type} {w : Nat} (x : S2x16777216.Idx → α) (idx : IVec S16777216x2 w) (j : Fin 16777216) :
    Host.gather gather_S2x16777216_S16777216x2_S16777216_n_01_n_n_01_1_11 x idx (ix1 j)
      = x (ix2 (⟨min (idx (ix2 j (0 : Fin 2))).toInt.toNat 1, by omega⟩ : Fin 2)
            (⟨min (idx (ix2 j (1 : Fin 2))).toInt.toNat 16777215, by omega⟩ : Fin 16777216)) := by
  unfold Host.gather
  congr 1
  funext a
  refine Fin.ext ?_
  match a with
  | ⟨0, _⟩ =>
    show GatherDims.start _ (ix1 j) idx 0 + GatherDims.batchCoord _ (ix1 j) 0 + GatherDims.offCoord _ (ix1 j) 0 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (by decide)]
    have hsi : GatherDims.siIdx gather_S2x16777216_S16777216x2_S16777216_n_01_n_n_01_1_11 (ix1 j)
        ⟨List.idxOf (0 : Fin 2) gather_S2x16777216_S16777216x2_S16777216_n_01_n_n_01_1_11.startIndexMap,
          List.idxOf_lt_length_iff.2 (by decide)⟩ = ix2 j (0 : Fin 2) := by
      funext b; refine Fin.ext ?_
      match b with
      | ⟨0, _⟩ => rfl
      | ⟨1, _⟩ => rfl
    rw [hsi]
    rfl
  | ⟨1, _⟩ =>
    show GatherDims.start _ (ix1 j) idx 1 + GatherDims.batchCoord _ (ix1 j) 1 + GatherDims.offCoord _ (ix1 j) 1 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (by decide)]
    have hsi : GatherDims.siIdx gather_S2x16777216_S16777216x2_S16777216_n_01_n_n_01_1_11 (ix1 j)
        ⟨List.idxOf (1 : Fin 2) gather_S2x16777216_S16777216x2_S16777216_n_01_n_n_01_1_11.startIndexMap,
          List.idxOf_lt_length_iff.2 (by decide)⟩ = ix2 j (1 : Fin 2) := by
      funext b; refine Fin.ext ?_
      match b with
      | ⟨0, _⟩ => rfl
      | ⟨1, _⟩ => rfl
    rw [hsi]
    rfl

/-! ## The index tables: labels and positions are their own normalisation -/

/-- A label word, 0 or 1, is not negative: the wrap-around select keeps it. -/
theorem norm_label (w : BitVec 32) (hw : w = 0#32 ∨ w = 1#32) :
    Scalar.select (IntOp.cmpi .slt w 0#32) (IntOp.addi w 2#32) w = w := by
  rcases hw with rfl | rfl <;> decide

/-- The other row's word, `1 - w` for a label `w`, is 1 or 0 and likewise kept. -/
theorem norm_other (w : BitVec 32) (hw : w = 0#32 ∨ w = 1#32) :
    Scalar.select (IntOp.cmpi .slt (IntOp.subi 1#32 w) 0#32) (IntOp.addi (IntOp.subi 1#32 w) 2#32) (IntOp.subi 1#32 w) = 1#32 - w := by
  rcases hw with rfl | rfl <;> decide

/-- A position below 2²⁴ is a non-negative word: the wrap-around select keeps it. -/
theorem norm_pos (j : Fin 16777216) :
    Scalar.select (IntOp.cmpi .slt (BitVec.ofNat 32 j.val) 0#32) (IntOp.addi (BitVec.ofNat 32 j.val) 16777216#32)
      (BitVec.ofNat 32 j.val) = BitVec.ofNat 32 j.val := by
  have hj := j.isLt
  have h : IntOp.cmpi .slt (BitVec.ofNat 32 j.val) 0#32 = 0#1 := by
    apply eq_zero_of_ne_one
    intro h1
    have := (StableHlo.Predicate.slt_ofNat_iff j.val 0 (by omega) (by omega)).mp h1
    omega
  rw [h, select_zero]

/-- The normalised label at sample `j` is the label. -/
theorem v5_at (x1 : (⟨S16777216, .i32⟩ : BufTy).Contents (Elt Ideal)) (j : Fin 16777216)
    (hw : x1 (ix1 j) = 0#32 ∨ x1 (ix1 j) = 1#32) : val_main_v5 (F := Ideal) x1 (ix1 j) = x1 (ix1 j) := by
  rw [val_main_v5_apply, val_main_v2_apply, val_main_v4_apply, val_main_v1_apply, val_main_v3_apply, val_main_c_apply,
    val_main_c_0_apply]
  exact norm_label _ hw

/-- The normalised position at sample `j` is `j`. -/
theorem v10_at (j : Fin 16777216) : val_main_v10 (F := Ideal) (ix1 j) = BitVec.ofNat 32 j.val := by
  rw [val_main_v10_apply, val_main_v7_apply, val_main_v9_apply, val_main_v0_apply, val_main_v6_apply, val_main_v8_apply,
    val_main_c_1_apply, val_main_c_2_apply]
  exact norm_pos j

/-- The normalised other-row word at sample `j` is `1 - label`. -/
theorem v21_at (x1 : (⟨S16777216, .i32⟩ : BufTy).Contents (Elt Ideal)) (j : Fin 16777216)
    (hw : x1 (ix1 j) = 0#32 ∨ x1 (ix1 j) = 1#32) : val_main_v21 (F := Ideal) x1 (ix1 j) = 1#32 - x1 (ix1 j) := by
  rw [val_main_v21_apply, val_main_v18_apply, val_main_v20_apply, val_main_v16_apply, val_main_v15_apply, val_main_v17_apply,
    val_main_v19_apply, val_main_c_3_apply, val_main_c_4_apply, val_main_c_5_apply]
  exact norm_other _ hw

/-- The second normalised position at sample `j` is `j` too. -/
theorem v26_at (j : Fin 16777216) : val_main_v26 (F := Ideal) (ix1 j) = BitVec.ofNat 32 j.val := by
  rw [val_main_v26_apply, val_main_v23_apply, val_main_v25_apply, val_main_v0_apply, val_main_v22_apply, val_main_v24_apply,
    val_main_c_6_apply, val_main_c_7_apply]
  exact norm_pos j

/-- Row `j` of an [n × 1] column is read from the vector at `j`. -/
theorem col_idx (j : Fin 16777216) : idx_main_v11 (ix2 j (0 : Fin 1)) = ix1 j := by
  funext a; match a with | ⟨0, _⟩ => rfl

/-- Column 0 of the first start-index table is the normalised label. -/
theorem v13_col0 (x1 : (⟨S16777216, .i32⟩ : BufTy).Contents (Elt Ideal)) (j : Fin 16777216) :
    val_main_v13 (F := Ideal) x1 (ix2 j (0 : Fin 2)) = val_main_v5 (F := Ideal) x1 (ix1 j) := by
  unfold val_main_v13
  refine (concatenate_pair_apply_left (t := S16777216x2) (s₁ := S16777216x1) (s₂ := S16777216x1) (1 : Fin 2) _ _ _ (ix2 j (0 : Fin 2)) rfl (ix2 j (0 : Fin 1))
    (fun b => match b with | ⟨0, _⟩ => rfl | ⟨1, _⟩ => rfl)).trans ?_
  rw [val_main_v11_apply]
  exact congrArg _ (col_idx j)

/-- Column 1 of the first start-index table is the normalised position. -/
theorem v13_col1 (x1 : (⟨S16777216, .i32⟩ : BufTy).Contents (Elt Ideal)) (j : Fin 16777216) :
    val_main_v13 (F := Ideal) x1 (ix2 j (1 : Fin 2)) = val_main_v10 (F := Ideal) (ix1 j) := by
  unfold val_main_v13
  refine (concatenate_pair_apply_right (t := S16777216x2) (s₁ := S16777216x1) (s₂ := S16777216x1) (1 : Fin 2) _ _ _ (ix2 j (1 : Fin 2)) rfl rfl (ix2 j (0 : Fin 1))
    (fun b hb => match b, hb with | ⟨0, _⟩, _ => rfl | ⟨1, _⟩, hb => absurd rfl hb) rfl).trans ?_
  rw [val_main_v12_apply]
  exact congrArg _ (col_idx j)

/-- Column 0 of the second start-index table is the normalised other-row word. -/
theorem v29_col0 (x1 : (⟨S16777216, .i32⟩ : BufTy).Contents (Elt Ideal)) (j : Fin 16777216) :
    val_main_v29 (F := Ideal) x1 (ix2 j (0 : Fin 2)) = val_main_v21 (F := Ideal) x1 (ix1 j) := by
  unfold val_main_v29
  refine (concatenate_pair_apply_left (t := S16777216x2) (s₁ := S16777216x1) (s₂ := S16777216x1) (1 : Fin 2) _ _ _ (ix2 j (0 : Fin 2)) rfl (ix2 j (0 : Fin 1))
    (fun b => match b with | ⟨0, _⟩ => rfl | ⟨1, _⟩ => rfl)).trans ?_
  rw [val_main_v27_apply]
  exact congrArg _ (col_idx j)

/-- Column 1 of the second start-index table is the normalised position. -/
theorem v29_col1 (x1 : (⟨S16777216, .i32⟩ : BufTy).Contents (Elt Ideal)) (j : Fin 16777216) :
    val_main_v29 (F := Ideal) x1 (ix2 j (1 : Fin 2)) = val_main_v26 (F := Ideal) (ix1 j) := by
  unfold val_main_v29
  refine (concatenate_pair_apply_right (t := S16777216x2) (s₁ := S16777216x1) (s₂ := S16777216x1) (1 : Fin 2) _ _ _ (ix2 j (1 : Fin 2)) rfl rfl (ix2 j (0 : Fin 1))
    (fun b hb => match b, hb with | ⟨0, _⟩, _ => rfl | ⟨1, _⟩, hb => absurd rfl hb) rfl).trans ?_
  rw [val_main_v28_apply]
  exact congrArg _ (col_idx j)

/-! ## The two gathers at a sample: the label's row and the other row -/

/-- Two rank-2 indices with equal coordinates are equal. -/
theorem ix2_congr {n0 n1 : Nat} {a a' : Fin n0} {b b' : Fin n1} (ha : a.val = a'.val) (hb : b.val = b'.val) :
    ix2 a b = ix2 a' b' := by
  rw [Fin.ext ha, Fin.ext hb]

/-- A position word reads back, signed and clamped into the axis, as the position. -/
theorem clamp_pos (j : Fin 16777216) : min (BitVec.ofNat 32 j.val).toInt.toNat 16777215 = j.val := by
  have hj := j.isLt
  rw [StableHlo.Predicate.toInt_ofNat_small j.val (by omega)]
  omega

/-- Label 0: the first gather reads row 0 at the sample's position. -/
theorem v14_zero (x0 : (⟨S2x16777216, .f32⟩ : BufTy).Contents (Elt Ideal)) (x1 : (⟨S16777216, .i32⟩ : BufTy).Contents (Elt Ideal))
    (j : Fin 16777216) (h : x1 (ix1 j) = 0#32) : val_main_v14 (F := Ideal) x0 x1 (ix1 j) = x0 (ix2 (0 : Fin 2) j) := by
  unfold val_main_v14
  refine (gather_pair_apply x0 _ j).trans (congrArg x0 (ix2_congr ?_ ?_))
  · show min (val_main_v13 (F := Ideal) x1 (ix2 j (0 : Fin 2))).toInt.toNat 1 = 0
    rw [v13_col0, v5_at x1 j (Or.inl h), h]; decide
  · show min (val_main_v13 (F := Ideal) x1 (ix2 j (1 : Fin 2))).toInt.toNat 16777215 = j.val
    rw [v13_col1, v10_at]; exact clamp_pos j

/-- Label 1: the first gather reads row 1. -/
theorem v14_one (x0 : (⟨S2x16777216, .f32⟩ : BufTy).Contents (Elt Ideal)) (x1 : (⟨S16777216, .i32⟩ : BufTy).Contents (Elt Ideal))
    (j : Fin 16777216) (h : x1 (ix1 j) = 1#32) : val_main_v14 (F := Ideal) x0 x1 (ix1 j) = x0 (ix2 (1 : Fin 2) j) := by
  unfold val_main_v14
  refine (gather_pair_apply x0 _ j).trans (congrArg x0 (ix2_congr ?_ ?_))
  · show min (val_main_v13 (F := Ideal) x1 (ix2 j (0 : Fin 2))).toInt.toNat 1 = 1
    rw [v13_col0, v5_at x1 j (Or.inr h), h]; decide
  · show min (val_main_v13 (F := Ideal) x1 (ix2 j (1 : Fin 2))).toInt.toNat 16777215 = j.val
    rw [v13_col1, v10_at]; exact clamp_pos j

/-- Label 0: the second gather reads row 1, the other row. -/
theorem v30_zero (x0 : (⟨S2x16777216, .f32⟩ : BufTy).Contents (Elt Ideal)) (x1 : (⟨S16777216, .i32⟩ : BufTy).Contents (Elt Ideal))
    (j : Fin 16777216) (h : x1 (ix1 j) = 0#32) : val_main_v30 (F := Ideal) x0 x1 (ix1 j) = x0 (ix2 (1 : Fin 2) j) := by
  unfold val_main_v30
  refine (gather_pair_apply x0 _ j).trans (congrArg x0 (ix2_congr ?_ ?_))
  · show min (val_main_v29 (F := Ideal) x1 (ix2 j (0 : Fin 2))).toInt.toNat 1 = 1
    rw [v29_col0, v21_at x1 j (Or.inl h), h]; decide
  · show min (val_main_v29 (F := Ideal) x1 (ix2 j (1 : Fin 2))).toInt.toNat 16777215 = j.val
    rw [v29_col1, v26_at]; exact clamp_pos j

/-- Label 1: the second gather reads row 0. -/
theorem v30_one (x0 : (⟨S2x16777216, .f32⟩ : BufTy).Contents (Elt Ideal)) (x1 : (⟨S16777216, .i32⟩ : BufTy).Contents (Elt Ideal))
    (j : Fin 16777216) (h : x1 (ix1 j) = 1#32) : val_main_v30 (F := Ideal) x0 x1 (ix1 j) = x0 (ix2 (0 : Fin 2) j) := by
  unfold val_main_v30
  refine (gather_pair_apply x0 _ j).trans (congrArg x0 (ix2_congr ?_ ?_))
  · show min (val_main_v29 (F := Ideal) x1 (ix2 j (0 : Fin 2))).toInt.toNat 1 = 0
    rw [v29_col0, v21_at x1 j (Or.inr h), h]; decide
  · show min (val_main_v29 (F := Ideal) x1 (ix2 j (1 : Fin 2))).toInt.toNat 16777215 = j.val
    rw [v29_col1, v26_at]; exact clamp_pos j

/-! ## One sample's element: the log-add-exp form of the two gathered distances -/

/-- The guard `d ≠ d` never fires on the extended reals, so the select keeps the log-add-exp branch; the rest is the
    form's own text, operation by operation. -/
theorem v49_at (x0 : (⟨S2x16777216, .f32⟩ : BufTy).Contents (Elt Ideal)) (x1 : (⟨S16777216, .i32⟩ : BufTy).Contents (Elt Ideal))
    (i : S16777216.Idx) :
    val_main_v49 (F := Ideal) x0 x1 i
      = Cert.Loss.logAddExpForm (Ideal.ofBits .f32 0x42800000#32) (Ideal.ofBits .f32 0x3F000000#32)
          (val_main_v14 (F := Ideal) x0 x1 i) (val_main_v30 (F := Ideal) x0 x1 i) := by
  have hguard : val_main_v41 (F := Ideal) x0 x1 i = 0#1 := by
    rw [val_main_v41_apply]
    show Ideal.cmp .une _ _ = 0#1
    simp [Ideal.cmp]
  rw [val_main_v49_apply, val_main_v48_apply, hguard, select_zero, val_main_v47_apply, val_main_v39_apply, val_main_v46_apply,
    val_main_v45_apply, val_main_v44_apply, val_main_v43_apply, val_main_v40_apply, val_main_v35_apply, val_main_v38_apply,
    val_main_v34_apply, val_main_v37_apply, val_main_v33_apply, val_main_v36_apply, val_main_v32_apply, val_main_v31_apply,
    val_main_cst_apply, val_main_cst_8_apply, val_main_cst_9_apply]
  rfl

/-! ## The result: the zero constant plus the total loss -/

/-- Under real distances and labels that are 0 or 1, the reference's result is `0 + total`. -/
theorem ref_total (x0 : (⟨S2x16777216, .f32⟩ : BufTy).Contents (Elt Ideal)) (x1 : (⟨S16777216, .i32⟩ : BufTy).Contents (Elt Ideal))
    (hfin : ∀ i, ∃ r : ℝ, x0 i = (r : EReal))
    (hlbl : ∀ j : Fin 16777216, x1 (ix1 j) = 0#32 ∨ x1 (ix1 j) = 1#32) (i : S_.Idx) :
    val_main_v50 (F := Ideal) x0 x1 i = 0 + Cert.Spec.total x0 x1 := by
  rw [val_main_v50_apply, val_main_cst_10_apply]
  show Ideal.ofBits .f32 0x00000000#32 + _ = _
  rw [Cert.Loss.ofBits_zero]
  refine congrArg (fun t : EReal => 0 + t) ?_
  unfold Cert.Spec.total
  rw [← Equiv.sum_comp (idxEquiv1 (n := 16777216)).symm]
  refine Finset.sum_congr rfl (fun j _ => ?_)
  show val_main_v49 (F := Ideal) x0 x1 (ix1 j) = _
  obtain ⟨r0, h0⟩ := hfin (ix2 (0 : Fin 2) j)
  obtain ⟨r1, h1⟩ := hfin (ix2 (1 : Fin 2) j)
  rw [v49_at]
  rcases hlbl j with h | h
  · rw [v14_zero x0 x1 j h, v30_zero x0 x1 j h, h, h0, h1, Cert.Loss.sampleLoss_eq_logAddExpForm, if_pos rfl, if_pos rfl]
  · rw [v14_one x0 x1 j h, v30_one x0 x1 j h, h, h0, h1, Cert.Loss.sampleLoss_eq_logAddExpForm, if_neg (by decide),
      if_neg (by decide)]

end Cert.ReferenceIdeal.RefValue

end
-- ==== Proof.KernelPieces.lean ====
/-
  What one grid point's body leaves behind, as values.

  The body reads the two rows of its distance block (row 0 and row 1 of a [2, 2048, 512] block) and its label block,
  adds the per-lane sum of the 2048 × 512 sample losses to the [1, 512] accumulator it carries, and, at the last
  inner step only, writes the sum of the accumulator's 512 lanes into every lane of its [1, 1, 128] output block.
  Three control cases: the first inner step (the accumulator is zeroed first, so the update starts from the zero
  row), a middle step (the update starts from what the step before left), the last inner step (a middle step's
  update, then the output block).  Each case's found pieces are read back here as the body's pure payloads of the
  loaded blocks.
-/
import proofs.«402410_j9878424781365_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

/-- Row 0 of a distance block: what the body's first load reads of it. -/
abbrev rowZero (x0 : Vec F S2x2048x512 .f32) : Vec F S1x2048x512 .f32 :=
  View.ld x0 (Rect.unit ![0, 0, 0] S1x2048x512.size inb_S2x2048x512_S1x2048x512_0_0_0)

/-- Row 1 of a distance block: what the body's second load reads of it. -/
abbrev rowOne (x0 : Vec F S2x2048x512 .f32) : Vec F S1x2048x512 .f32 :=
  View.ld x0 (Rect.unit ![1, 0, 0] S1x2048x512.size inb_S2x2048x512_S1x2048x512_1_0_0)

/-- The accumulator after a step that starts from `acc`: `acc` plus the per-lane sums of the block's losses. -/
abbrev stepAcc (x0 : Vec F S2x2048x512 .f32) (x1 : Vec F S2048x512 .i32) (acc : Vec F S1x512 .f32) : Vec F S1x512 .f32 :=
  k0_pay3 (rowZero x0) (rowOne x0) x1 acc

/-- A middle step leaves the accumulator at the update of what it found there. -/
theorem scratch_middle (c : Dev nD) (i : grid0.Coords) (arg2 : Memref sig .tc .vmem S2x2048x512 .f32) (harg2 : arg2.IsWhole) (arg3 : Memref sig .tc .vmem S2048x512 .i32) (harg3 : arg3.IsWhole) (arg4 : Memref sig .tc .vmem S1x1x128 .f32) (harg4 : arg4.IsWhole) (arg5 : Memref sig .tc .vmem S1x512 .f32) (harg5 : arg5.IsWhole) (hc0 : ¬cond0_0 i) (hc1 : ¬cond0_1 i)
    (x0 : Vec F S2x2048x512 .f32) (x1 : Vec F S2048x512 .i32) (xs0 : Vec F S1x512 .f32) :
    sout0_B_0 c i arg2 harg2 arg3 harg3 arg4 harg4 arg5 harg5 hc0 hc1 x0 x1 xs0 = stepAcc x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero zero2]
  simp only [View.readAt_eq_ld, harg2.read_unread, harg3.read_unread, harg5.read_unread, View.ld_unit_zero (S := S2048x512) zero2,
    View.ld_unit_zero (S := S1x512) zero2]

/-- The last inner step leaves the accumulator at the same update; -/
theorem scratch_last (c : Dev nD) (i : grid0.Coords) (arg2 : Memref sig .tc .vmem S2x2048x512 .f32) (harg2 : arg2.IsWhole) (arg3 : Memref sig .tc .vmem S2048x512 .i32) (harg3 : arg3.IsWhole) (arg4 : Memref sig .tc .vmem S1x1x128 .f32) (harg4 : arg4.IsWhole) (arg5 : Memref sig .tc .vmem S1x512 .f32) (harg5 : arg5.IsWhole) (hc0 : ¬cond0_0 i) (hc1 : cond0_1 i)
    (x0 : Vec F S2x2048x512 .f32) (x1 : Vec F S2048x512 .i32) (xs0 : Vec F S1x512 .f32) :
    sout0_C_0 c i arg2 harg2 arg3 harg3 arg4 harg4 arg5 harg5 hc0 hc1 x0 x1 xs0 = stepAcc x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero zero2]
  simp only [View.readAt_eq_ld, harg2.read_unread, harg3.read_unread, harg5.read_unread, View.ld_unit_zero (S := S2048x512) zero2,
    View.ld_unit_zero (S := S1x512) zero2]

/-- and its output block at the lane total of that updated accumulator, in every lane. -/
theorem out_last (c : Dev nD) (i : grid0.Coords) (arg2 : Memref sig .tc .vmem S2x2048x512 .f32) (harg2 : arg2.IsWhole) (arg3 : Memref sig .tc .vmem S2048x512 .i32) (harg3 : arg3.IsWhole) (arg4 : Memref sig .tc .vmem S1x1x128 .f32) (harg4 : arg4.IsWhole) (arg5 : Memref sig .tc .vmem S1x512 .f32) (harg5 : arg5.IsWhole) (hc0 : ¬cond0_0 i) (hc1 : cond0_1 i)
    (x0 : Vec F S2x2048x512 .f32) (x1 : Vec F S2048x512 .i32) (xs0 : Vec F S1x512 .f32) :
    out0_C_2 c i arg2 harg2 arg3 harg3 arg4 harg4 arg5 harg5 hc0 hc1 x0 x1 xs0 = k0_pay1 (stepAcc x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero zero3]
  simp only [View.readAt_eq_ld, harg2.read_unread, harg3.read_unread, harg5.read_unread, View.ld_unit_zero (S := S2048x512) zero2,
    View.ld_unit_zero (S := S1x512) zero2, View.readCov_unit_zero (S := S1x512) _ zero2]

/-- The first inner step zeroes the accumulator and then updates it: the update of the zero row. -/
theorem scratch_first (c : Dev nD) (i : grid0.Coords) (arg2 : Memref sig .tc .vmem S2x2048x512 .f32) (harg2 : arg2.IsWhole) (arg3 : Memref sig .tc .vmem S2048x512 .i32) (harg3 : arg3.IsWhole) (arg4 : Memref sig .tc .vmem S1x1x128 .f32) (harg4 : arg4.IsWhole) (arg5 : Memref sig .tc .vmem S1x512 .f32) (harg5 : arg5.IsWhole) (hc0 : cond0_0 i) (hc1 : ¬cond0_1 i)
    (x0 : Vec F S2x2048x512 .f32) (x1 : Vec F S2048x512 .i32) :
    sout0_A_0 c i arg2 harg2 arg3 harg3 arg4 harg4 arg5 harg5 hc0 hc1 x0 x1 = stepAcc x0 x1 (k0_pay2 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1x512) zero2]
  simp only [View.readAt_eq_ld, harg2.read_unread, harg3.read_unread, View.ld_unit_zero (S := S2048x512) zero2,
    View.ld_unit_zero (S := S1x512) zero2, View.readCov_unit_zero (S := S1x512) _ zero2]

end Cert.KernelIdeal.Pieces

end
-- ==== Proof.KernelPayload.lean ====
/-
  The body's three payloads read at an index, over the extended reals.

  * The zero row the first inner step stores is `0` in every lane.
  * The accumulator update at lane `l` is the old value at `l` plus the sum, over the block's 2048 rows `r`, of the
    loss of the sample at `(r, l)`: the sample's distances are the two rows of the distance block at `(r, l)`, its
    label the label block's entry there; "label = 0" picks row 0 as the positive distance and row 1 as the negative,
    any other label the other way round; the loss is the softplus form at scale 64 and margin 1/2.
  * The output block holds, in every lane, the sum of the accumulator's 512 lanes.
-/
import proofs.«402410_j9878424781365_3_alg».proof.Proof.Gen.KernelIdeal.Skeleton
import proofs.«402410_j9878424781365_3_alg».proof.Proof.LossLaw
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

open Idealize.ShloMosaic Idealize.ShloMosaic.ValueIdx

namespace Cert.KernelIdeal.Payload

open Cert.KernelIdeal Cert.KernelIdeal.Gen

/-- The loss of the sample with distances `d0`, `d1` and label `lbl`, as the body computes it. -/
abbrev bodyLoss (d0 d1 : EReal) (lbl : BitVec 32) : EReal :=
  Cert.Loss.softplusForm (Ideal.ofBits .f32 0x42800000#32) (Ideal.ofBits .f32 0x3F000000#32)
    (if lbl = 0#32 then d0 else d1) (if lbl = 0#32 then d1 else d0)

/-- The zero row: `0` in every lane. -/
theorem zeroRow_apply (j : S1x512.Idx) : k0_pay2 (F := Ideal) j = 0 := by
  unfold k0_pay2
  rw [shapeCast_self]
  exact Cert.Loss.ofBits_zero

/-! The transcendental and absolute-value operations act lane by lane. -/
theorem cos_apply {s : Shape} {φ : FTy} (v : FVec Ideal s φ) (i : s.Idx) : cos v i = FloatOps.cos (v i) := rfl
theorem exp_apply {s : Shape} {φ : FTy} (v : FVec Ideal s φ) (i : s.Idx) : exp v i = FloatOps.exp (v i) := rfl
theorem log1p_apply {s : Shape} {φ : FTy} (v : FVec Ideal s φ) (i : s.Idx) : log1p v i = FloatOps.log1p (v i) := rfl
theorem absf_apply {s : Shape} {φ : FTy} (v : FVec Ideal s φ) (i : s.Idx) : absf v i = FloatOps.absf (v i) := rfl

/-- A select on "the label is 0" is an `if` on it. -/
theorem select_label {α : Type} (lbl : BitVec 32) (a b : α) :
    Scalar.select (IntOp.cmpi .eq lbl 0#32) a b = if lbl = 0#32 then a else b := by
  by_cases h : lbl = 0#32
  · rw [if_pos h, StableHlo.Predicate.cmpi_eq_iff.mpr h, select_one]
  · rw [if_neg h, eq_zero_of_ne_one (fun h1 => h (StableHlo.Predicate.cmpi_eq_iff.mp h1)), select_zero]

/-- The per-sample loss the body computes at `(r, l)` of its block, before any reduction. -/
theorem lossAt (v3 v5 : FVec Ideal S1x2048x512 .f32) (v7 : IVec S2048x512 32) (r : Fin 2048) (l : Fin 512) :
    FloatOps.addf
        (FloatOps.maximumf
          (FloatOps.mulf (Scalar.ofBits .f32 0x42800000#32)
            (FloatOps.subf
              (FloatOps.cos (Scalar.select (IntOp.cmpi .eq (v7 (ix2 r l)) 0#32) (v5 (ix3 (0 : Fin 1) r l)) (v3 (ix3 (0 : Fin 1) r l))))
              (FloatOps.cos (FloatOps.addf (Scalar.select (IntOp.cmpi .eq (v7 (ix2 r l)) 0#32) (v3 (ix3 (0 : Fin 1) r l)) (v5 (ix3 (0 : Fin 1) r l)))
                (Scalar.ofBits .f32 0x3F000000#32)))))
          (Scalar.ofBits .f32 0x00000000#32))
        (FloatOps.log1p (FloatOps.exp (FloatOps.subf (Scalar.ofBits .f32 0x00000000#32)
          (FloatOps.absf (FloatOps.mulf (Scalar.ofBits .f32 0x42800000#32)
            (FloatOps.subf
              (FloatOps.cos (Scalar.select (IntOp.cmpi .eq (v7 (ix2 r l)) 0#32) (v5 (ix3 (0 : Fin 1) r l)) (v3 (ix3 (0 : Fin 1) r l))))
              (FloatOps.cos (FloatOps.addf (Scalar.select (IntOp.cmpi .eq (v7 (ix2 r l)) 0#32) (v3 (ix3 (0 : Fin 1) r l)) (v5 (ix3 (0 : Fin 1) r l)))
                (Scalar.ofBits .f32 0x3F000000#32)))))))))
      = bodyLoss (v3 (ix3 (0 : Fin 1) r l)) (v5 (ix3 (0 : Fin 1) r l)) (v7 (ix2 r l)) := by
  rw [select_label, select_label]
  show max (Ideal.ofBits .f32 0x42800000#32 * (Ideal.cos _ - Ideal.cos (_ + Ideal.ofBits .f32 0x3F000000#32))) (Ideal.ofBits .f32 0x00000000#32)
      + Ideal.log1p (Ideal.exp (Ideal.ofBits .f32 0x00000000#32 - max _ (-_))) = _
  rw [Cert.Loss.ofBits_zero]
  rfl

/-- A sum over the 2048 rows of a [2048, 512] array, read at lane `l`. -/
theorem colSum_apply (src : FVec Ideal S2048x512 .f32) (hφ : FKind.Formats .f32)
    (hacc : (0x00000000#32 : BitVec 32) = 0x00000000#32) (l : Fin 512) :
    multiReduction .add [0] S512 src 0x00000000#32 reduces_S2048x512_S512 hφ hacc (ix1 l) = ∑ r : Fin 2048, src (ix2 r l) := by
  refine (Ideal.multiReduction_add_single src 0x00000000#32 reduces_S2048x512_S512 hφ hacc (ix1 l)).trans ?_
  refine Finset.sum_congr rfl fun r _ => congrArg src ?_
  funext a
  match a with
  | ⟨0, _⟩ => rfl
  | ⟨1, _⟩ => rfl

/-- A sum over the 512 lanes of a [1, 512] array. -/
theorem laneSum_apply (src : FVec Ideal S1x512 .f32) (hφ : FKind.Formats .f32)
    (hacc : (0x00000000#32 : BitVec 32) = 0x00000000#32) :
    multiReduction .add [1] S1 src 0x00000000#32 reduces_S1x512_S1 hφ hacc (ix1 (0 : Fin 1)) = ∑ l : Fin 512, src (ix2 (0 : Fin 1) l) := by
  refine (Ideal.multiReduction_add_single src 0x00000000#32 reduces_S1x512_S1 hφ hacc (ix1 (0 : Fin 1))).trans ?_
  refine Finset.sum_congr rfl fun k _ => congrArg src ?_
  funext a
  match a with
  | ⟨0, _⟩ => rfl
  | ⟨1, _⟩ => rfl

/-- The accumulator update at lane `l`: the old value there plus the column sum of the block's sample losses. -/
theorem step_apply (v3 v5 : FVec Ideal S1x2048x512 .f32) (v7 : IVec S2048x512 32) (acc : FVec Ideal S1x512 .f32) (l : Fin 512) :
    k0_pay3 (F := Ideal) v3 v5 v7 acc (ix2 (0 : Fin 1) l)
      = acc (ix2 (0 : Fin 1) l)
        + ∑ r : Fin 2048, bodyLoss (v3 (ix3 (0 : Fin 1) r l)) (v5 (ix3 (0 : Fin 1) r l)) (v7 (ix2 r l)) := by
  unfold k0_pay3
  dsimp only
  rw [shapeCast_self, addf_apply, shapeCast_a_1a_apply]
  refine congrArg (acc (ix2 (0 : Fin 1) l) + ·) ?_
  refine (colSum_apply _ _ _ l).trans ?_
  refine Finset.sum_congr rfl fun r _ => ?_
  rw [← lossAt v3 v5 v7 r l]
  simp only [addf_apply, maximumf_apply, subf_apply, mulf_apply, broadcast_apply, select_apply, cos_apply, exp_apply, log1p_apply,
    absf_apply, shapeCast_1ab_ab_apply, shapeCast_self]
  rfl

/-- The output block at any lane: the sum of the accumulator's lanes. -/
theorem total_apply (v38 : FVec Ideal S1x512 .f32) (j : Fin 128) :
    k0_pay1 (F := Ideal) v38 (ix3 (0 : Fin 1) (0 : Fin 1) j) = ∑ l : Fin 512, v38 (ix2 (0 : Fin 1) l) := by
  unfold k0_pay1
  dsimp only
  rw [broadcastTo_apply _ _ _ (ix3 (0 : Fin 1) (0 : Fin 1) (0 : Fin 1)) (fun a => by
    match a with
    | ⟨0, _⟩ => rfl
    | ⟨1, _⟩ => rfl
    | ⟨2, _⟩ => rfl)]
  rw [shapeCast_ab_1ab_apply, shapeCast_a_1a_apply]
  exact laneSum_apply v38 _ _

end Cert.KernelIdeal.Payload

end
-- ==== Proof.KernelAccum.lean ====
/-
  The accumulator, point by point.

  Grid point `t` (16 points: core `t / 8`, inner step `t % 8`) reads distance block `t` and label block `t`.  Its
  COLUMN LOSS at lane `l` is the sum over the block's 2048 rows of the sample losses in that lane.  The carried
  accumulator after point `t`, at lane `l`, is the column loss of `t` added to `0` at a first inner step and to what the
  point before left otherwise: a recursion on the point, which the frame's point-by-point contents satisfy by
  induction.  At a last inner step the output block holds, in every lane, the sum over the 512 lanes of the
  accumulator that step leaves.
-/
import proofs.«402410_j9878424781365_3_alg».proof.Proof.KernelPieces
import proofs.«402410_j9878424781365_3_alg».proof.Proof.KernelPayload

set_option maxRecDepth 16384

noncomputable section

open Idealize.ShloMosaic Idealize.ShloMosaic.TcCoe Idealize.SL.Sem Idealize.ShloMosaic.ValueIdx

namespace Cert.KernelIdeal.Accum

open Cert.KernelIdeal Cert.KernelIdeal.Gen Cert.KernelIdeal.Pieces Cert.KernelIdeal.Payload

variable (m : (ℓ : Loc nD τ sig) → Buf (Elt Ideal) ℓ)

/-- The distance block point `t` reads, at its literal type. -/
abbrev dblk (c : Dev nD) (t : Fin cfg0.N) : Vec Ideal S2x2048x512 .f32 := iblk m c 0 t
/-- The label block point `t` reads, at its literal type. -/
abbrev lblk (c : Dev nD) (t : Fin cfg0.N) : Vec Ideal S2048x512 .i32 := iblk m c 1 t

/-- Point `t`'s column loss at lane `l`. -/
def colLoss (c : Dev nD) (t : Fin cfg0.N) (l : Fin 512) : EReal :=
  ∑ r : Fin 2048, bodyLoss (rowZero (dblk m c t) (ix3 (0 : Fin 1) r l)) (rowOne (dblk m c t) (ix3 (0 : Fin 1) r l))
    (lblk m c t (ix2 r l))

/-- The accumulator after point `n`, lane by lane. -/
def acc (c : Dev nD) : (n : ℕ) → n < cfg0.N → Fin 512 → EReal
  | 0, h => fun l => 0 + colLoss m c ⟨0, h⟩ l
  | n + 1, h => fun l =>
    if (n + 1) % 8 = 0 then 0 + colLoss m c ⟨n + 1, h⟩ l
    else acc c n (Nat.lt_of_succ_lt h) l + colLoss m c ⟨n + 1, h⟩ l

/-- The accumulator depends on the point's number only. -/
theorem acc_congr (c : Dev nD) {n n' : ℕ} (e : n = n') (h : n < cfg0.N) (h' : n' < cfg0.N) (l : Fin 512) :
    acc m c n h l = acc m c n' h' l := by
  subst e; rfl

/-- After a first inner step the scratch holds that step's column loss over the zero row. -/
theorem scratch_at_first (c : Dev nD) (t : Fin cfg0.N) (h0 : t.val % 8 = 0) (h1 : ¬t.val % 8 = 7) (l : Fin 512) :
    (outsAt0 m c t.val t.isLt).2 (ix2 (0 : Fin 1) l) = 0 + colLoss m c t l := by
  rw [outsAt0_A m c t h0 h1]
  dsimp only
  refine (congrFun (scratch_first (F := Ideal) c (grid0.coords t) (ms0_0 t) (hs0_0 t) (ms0_1 t) (hs0_1 t) (ms0_2 t) (hs0_2 t) scM0_0 (Memref.isWhole_whole _)
    ((hcond0_0 t).mpr h0) (fun h => h1 ((hcond0_1 t).mp h)) (dblk m c t) (lblk m c t)) (ix2 (0 : Fin 1) l)).trans ?_
  refine (step_apply (rowZero (dblk m c t)) (rowOne (dblk m c t)) (lblk m c t) (k0_pay2 (F := Ideal)) l).trans ?_
  exact congrArg (· + colLoss m c t l) (zeroRow_apply _)

/-- After a middle step the scratch holds that step's column loss over what the point before left; -/
theorem scratch_at_middle (c : Dev nD) (t : Fin cfg0.N) (h0 : ¬t.val % 8 = 0) (h1 : ¬t.val % 8 = 7) (l : Fin 512) :
    (outsAt0 m c t.val t.isLt).2 (ix2 (0 : Fin 1) l)
      = (outsAt0 m c (t.val - 1) (Nat.lt_of_le_of_lt (Nat.sub_le _ _) t.isLt)).2 (ix2 (0 : Fin 1) l) + colLoss m c t l := by
  rw [outsAt0_B m c t h0 h1]
  dsimp only
  refine (congrFun (scratch_middle (F := Ideal) c (grid0.coords t) (ms0_0 t) (hs0_0 t) (ms0_1 t) (hs0_1 t) (ms0_2 t) (hs0_2 t) scM0_0 (Memref.isWhole_whole _)
    (fun h => h0 ((hcond0_0 t).mp h)) (fun h => h1 ((hcond0_1 t).mp h)) (dblk m c t) (lblk m c t)
    (outsAt0 m c (t.val - 1) (Nat.lt_of_le_of_lt (Nat.sub_le _ _) t.isLt)).2) (ix2 (0 : Fin 1) l)).trans ?_
  exact step_apply (rowZero (dblk m c t)) (rowOne (dblk m c t)) (lblk m c t) _ l

/-- and after a last inner step likewise. -/
theorem scratch_at_last (c : Dev nD) (t : Fin cfg0.N) (h0 : ¬t.val % 8 = 0) (h1 : t.val % 8 = 7) (l : Fin 512) :
    (outsAt0 m c t.val t.isLt).2 (ix2 (0 : Fin 1) l)
      = (outsAt0 m c (t.val - 1) (Nat.lt_of_le_of_lt (Nat.sub_le _ _) t.isLt)).2 (ix2 (0 : Fin 1) l) + colLoss m c t l := by
  rw [outsAt0_C m c t h0 h1]
  dsimp only
  refine (congrFun (scratch_last (F := Ideal) c (grid0.coords t) (ms0_0 t) (hs0_0 t) (ms0_1 t) (hs0_1 t) (ms0_2 t) (hs0_2 t) scM0_0 (Memref.isWhole_whole _)
    (fun h => h0 ((hcond0_0 t).mp h)) ((hcond0_1 t).mpr h1) (dblk m c t) (lblk m c t)
    (outsAt0 m c (t.val - 1) (Nat.lt_of_le_of_lt (Nat.sub_le _ _) t.isLt)).2) (ix2 (0 : Fin 1) l)).trans ?_
  exact step_apply (rowZero (dblk m c t)) (rowOne (dblk m c t)) (lblk m c t) _ l

/-- The scratch after point `n` IS the accumulator: by induction on the point. -/
theorem scratch_eq (c : Dev nD) : ∀ (n : ℕ) (h : n < cfg0.N) (l : Fin 512),
    (outsAt0 m c n h).2 (ix2 (0 : Fin 1) l) = acc m c n h l
  | 0, h, l => scratch_at_first m c ⟨0, h⟩ rfl (by dsimp only; omega) l
  | n + 1, h, l => by
    have hN : n + 1 < 16 := lt_of_lt_of_eq h (show cfg0.N = 16 from N_0)
    show _ = (if (n + 1) % 8 = 0 then 0 + colLoss m c ⟨n + 1, h⟩ l
      else acc m c n (Nat.lt_of_succ_lt h) l + colLoss m c ⟨n + 1, h⟩ l)
    by_cases h0 : (n + 1) % 8 = 0
    · rw [if_pos h0]
      exact scratch_at_first m c ⟨n + 1, h⟩ h0 (by dsimp only; omega) l
    · rw [if_neg h0, ← scratch_eq c n (Nat.lt_of_succ_lt h) l]
      by_cases h1 : (n + 1) % 8 = 7
      · exact scratch_at_last m c ⟨n + 1, h⟩ h0 h1 l
      · exact scratch_at_middle m c ⟨n + 1, h⟩ h0 h1 l

/-- At a last inner step the output block holds the lane total of the accumulator, in every lane. -/
theorem out_at_last (c : Dev nD) (t : Fin cfg0.N) (h0 : ¬t.val % 8 = 0) (h1 : t.val % 8 = 7) (j : Fin 128) :
    (outsAt0 m c t.val t.isLt).1 (ix3 (0 : Fin 1) (0 : Fin 1) j) = ∑ l : Fin 512, acc m c t.val t.isLt l := by
  have e2 : ∀ l : Fin 512, acc m c t.val t.isLt l
      = stepAcc (dblk m c t) (lblk m c t) (outsAt0 m c (t.val - 1) (Nat.lt_of_le_of_lt (Nat.sub_le _ _) t.isLt)).2 (ix2 (0 : Fin 1) l) := by
    intro l
    rw [← scratch_eq m c t.val t.isLt l, outsAt0_C m c t h0 h1]
    dsimp only
    exact congrFun (scratch_last (F := Ideal) c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) (dblk m c t) (lblk m c t)
      (outsAt0 m c (t.val - 1) (Nat.lt_of_le_of_lt (Nat.sub_le _ _) t.isLt)).2) (ix2 (0 : Fin 1) l)
  rw [outsAt0_C m c t h0 h1]
  dsimp only
  refine (congrFun (out_last (F := Ideal) c (grid0.coords t) (ms0_0 t) (hs0_0 t) (ms0_1 t) (hs0_1 t) (ms0_2 t) (hs0_2 t) scM0_0 (Memref.isWhole_whole _)
    (fun h => h0 ((hcond0_0 t).mp h)) ((hcond0_1 t).mpr h1) (dblk m c t) (lblk m c t)
    (outsAt0 m c (t.val - 1) (Nat.lt_of_le_of_lt (Nat.sub_le _ _) t.isLt)).2) (ix3 (0 : Fin 1) (0 : Fin 1) j)).trans ?_
  refine (total_apply _ j).trans ?_
  exact Finset.sum_congr rfl fun l _ => (e2 l).symm

end Cert.KernelIdeal.Accum

end
-- ==== Proof.KernelResult.lean ====
/-
  The result array and the returned scalar.

  Only the two last inner steps (points 7 and 15) write the output window back: point `8q + 7` writes block `q` of the
  [2, 1, 128] result array, and what it writes is core `q`'s TOTAL, the lane sum of the accumulator that point leaves, in
  every lane.  The two blocks tile the array, so after the region the array holds core `(i 0)`'s total at every index
  `i`.  The lines after the region slice out lane 0 of each core's row, and add the two to the zero constant.
-/
import proofs.«402410_j9878424781365_3_alg».proof.Proof.KernelAccum
import Idealize.ShloMosaic.Lib.StableHlo.Run
import Idealize.ShloMosaic.Lib.Pipeline.Value
import Idealize.ShloMosaic.Lib.ValueIdxRank1

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Accum

variable (m : (ℓ : Loc nD τ sig) → Buf (Elt Ideal) ℓ) (ρ : Dev nD → PrngReg)

/-- Core `q`'s last inner step is a point of the grid. -/
theorem lastStep_lt (q : Fin 2) : 8 * q.val + 7 < cfg0.N := by
  have := q.isLt; rw [show cfg0.N = 16 from N_0]; omega

/-- Core `q`'s total: the lane sum of the accumulator its last inner step leaves. -/
def coreTotal (c : Dev nD) (q : Fin 2) : EReal := ∑ l : Fin 512, acc m c (8 * q.val + 7) (lastStep_lt q) l

/-- The result array: at every index, the total of the core its first coordinate names. -/
def perCore (c : Dev nD) : Buf (Elt Ideal) ((c : Thread nD τ).loc main_v2) :=
  fun i => coreTotal m c ⟨(i 0).val, (i 0).isLt⟩

/-- The output window's block index at point `t` is `(t / 8, 0, 0)`: decided over the grid. -/
theorem out_index : ∀ t : Fin cfg0.N, win0_2.index t (0 : Fin 3) = t.val / 8 ∧ win0_2.index t (1 : Fin 3) = 0 ∧ win0_2.index t (2 : Fin 3) = 0 :=
  (by decide +kernel : ∀ t : Fin grid0.N, _)

/-- What a writing-back point writes is its block of the result array. -/
theorem flushed_eq (c : Dev nD) (t : Fin cfg0.N) (hf : (cfg0.win 2).flush t = true) :
    (dats m 0 c).flushed 2 t = ((cfg0.win 2).blk t).view.read (Elt Ideal) (perCore m c) := by
  have h7 : t.val % 8 = 7 := (flush0_2 t).mp hf
  have h0 : ¬ t.val % 8 = 0 := by omega
  have hN : t.val < 16 := lt_of_lt_of_eq t.isLt (show cfg0.N = 16 from N_0)
  show (cfg0.win 2).cut (grid0.coords t) ((dats m 0 c).after 2 t) = _
  rw [after0_2]
  funext y
  obtain ⟨a, b, j, rfl⟩ : ∃ (a : Fin 1) (b : Fin 1) (j : Fin 128), y = ix3 a b j := ⟨y 0, y 1, y 2, eq_ix3 y⟩
  obtain rfl : a = 0 := Subsingleton.elim _ _
  obtain rfl : b = 0 := Subsingleton.elim _ _
  show (outsAt0 m c t.val t.isLt).1 (ix3 (0 : Fin 1) (0 : Fin 1) j) = perCore m c (((cfg0.win 2).blk t).view.emb (ix3 (0 : Fin 1) (0 : Fin 1) j))
  rw [out_at_last m c t h0 h7 j]
  show _ = ∑ l : Fin 512, acc m c (8 * ((((cfg0.win 2).blk t).view.emb (ix3 (0 : Fin 1) (0 : Fin 1) j)) 0).val + 7) _ l
  refine Finset.sum_congr rfl fun l _ => acc_congr m c ?_ _ _ l
  show t.val = 8 * (win0_2.index t (0 : Fin 3) * 1 + 1 * 0) + 7
  rw [(out_index t).1]
  omega

/-- An index of the result array is in point `t`'s block iff each coordinate is in the block's range on its axis. -/
theorem mem_blk (t : Fin cfg0.N) (i : S2x1x128.Idx) :
    i ∈ ((cfg0.win 2).blk t).view.set ↔ ∀ a : Fin 3, win0_2.index t a * S1x1x128.size a ≤ (i a).val ∧ (i a).val < win0_2.index t a * S1x1x128.size a + S1x1x128.size a := by
  show i ∈ ((View.whole main_v2).slice (win0_2.rect t)).set ↔ _
  rw [View.set_slice_whole, Rect.mem_set_unit]
  exact Iff.rfl

/-- Every index of the result array is in the block of its core's last inner step. -/
theorem cover (c : Dev nD) (i : S2x1x128.Idx) :
    ∃ t : Fin cfg0.N, (cfg0.win 2).flush t = true ∧ i ∈ ((cfg0.win 2).blk t).view.set := by
  have hi0 : (i 0).val < 2 := (i 0).isLt
  have hi1 : (i 1).val < 1 := (i 1).isLt
  have hi2 : (i 2).val < 128 := (i 2).isLt
  have hN : cfg0.N = 16 := N_0
  have ht : 8 * (i 0).val + 7 < cfg0.N := by omega
  obtain ⟨e0, e1, e2⟩ := out_index ⟨8 * (i 0).val + 7, ht⟩
  refine ⟨⟨8 * (i 0).val + 7, ht⟩, (flush0_2 _).mpr (by dsimp only; omega), ?_⟩
  rw [mem_blk]
  intro a
  match a with
  | ⟨0, _⟩ =>
    show win0_2.index ⟨8 * (i 0).val + 7, ht⟩ (0 : Fin 3) * 1 ≤ (i 0).val ∧ (i 0).val < win0_2.index ⟨8 * (i 0).val + 7, ht⟩ (0 : Fin 3) * 1 + 1
    rw [e0]; dsimp only; omega
  | ⟨1, _⟩ =>
    show win0_2.index ⟨8 * (i 0).val + 7, ht⟩ (1 : Fin 3) * 1 ≤ (i 1).val ∧ (i 1).val < win0_2.index ⟨8 * (i 0).val + 7, ht⟩ (1 : Fin 3) * 1 + 1
    rw [e1]; omega
  | ⟨2, _⟩ =>
    show win0_2.index ⟨8 * (i 0).val + 7, ht⟩ (2 : Fin 3) * 128 ≤ (i 2).val ∧ (i 2).val < win0_2.index ⟨8 * (i 0).val + 7, ht⟩ (2 : Fin 3) * 128 + 128
    rw [e2]; omega

/-- So the result array ends holding the per-core totals. -/
theorem final_out (c : Dev nD) : (dats m 0 c).arrAt 2 cfg0.N = perCore m c :=
  (dats m 0 c).arrAt_eq_of_cover 2 (perCore m c) (flushed_eq m c) (cover c)

/-- The lines after the region, as one function of the result array: lane 0 of each core's row, the two added to the
    zero constant. -/
def tail (X : FVec Ideal S2x1x128 .f32) : FVec Ideal S_ .f32 :=
  Host.reduceAdd (F := Ideal) (shapeCast S2 (extractStridedSlice S2x1x1 ![0, 0, 0] X slices_S2x1x128_S2x1x1_0_0_0) shapeCasts_S2x1x1_S2)
    (constant (F := Ideal) S_ .f32 0x00000000#32) reducesTo_S2_S_d0 h_S_

/-- What the program returns is that function of the per-core totals. -/
theorem returned_eq (c : Dev nD) :
    Pipeline.afterTail₀ cfgs (dats m) 0 (V0 m) [hostOps1] c main_v5 = tail (perCore m c) := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v2) = perCore m c :=
    (Pipeline.withArrays_arr spec0 launch0.win.arr_inj c (V0 m c) (fun w => (dats m 0 c).arrAt w (cfgs 0).N) 2).trans (final_out m c)
  rw [e]
  rfl

/-- The run, read: the program ends with its returned scalar at that function of the per-core totals, and its two
    arguments as they were. -/
theorem run : θ_run defs (onTc (τ := τ) (main (F := Ideal))) ⟨m, fun _ => 0, ρ⟩ fun r => ∀ c : Dev nD,
      r.2.mem ((c.tc : Thread nD τ).loc main_v5) = tail (perCore m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v5 (Pipeline.mem_restRefs_of main_v5 (by decide) (by decide))).trans (returned_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Result

end
-- ==== Proof.KernelBlocks.lean ====
/-
  The blocks a grid point reads, as entries of the argument arrays.

  Before the region the distances [2, 16777216] are re-laid as [2, 32768, 512] and the labels [16777216] as
  [32768, 512]: sample `s` sits at row `s / 512`, lane `s % 512`.  Point `t` reads rows `t · 2048 … t · 2048 + 2047`
  of both, so entry `(a, r, l)` of its distance block is `dist[a, (t · 2048 + r) · 512 + l]` and entry `(r, l)` of its label
  block is `label[(t · 2048 + r) · 512 + l]`.  Hence a point's column loss at lane `l` is the sum over its 2048 rows of the
  losses of those samples.
-/
import proofs.«402410_j9878424781365_3_alg».proof.Proof.KernelAccum
import proofs.«402410_j9878424781365_3_alg».proof.Proof.SampleLoss
import Idealize.ShloMosaic.Lib.StableHlo.Run
import Idealize.ShloMosaic.Lib.Pipeline.Value

set_option maxRecDepth 16384

noncomputable section

open Idealize.ShloMosaic Idealize.ShloMosaic.TcCoe Idealize.SL.Sem Idealize.ShloMosaic.ValueIdx

namespace Cert.KernelIdeal.Blocks

open Cert.KernelIdeal Cert.KernelIdeal.Gen Cert.KernelIdeal.Pieces Cert.KernelIdeal.Payload Cert.KernelIdeal.Accum

variable (m : (ℓ : Loc nD τ sig) → Buf (Elt Ideal) ℓ)

/-- The number of the sample at lane `l` of row `r` of block `t` is below the number of samples. -/
theorem sample_lt (t : Fin cfg0.N) (r : Fin 2048) (l : Fin 512) : (t.val * 2048 + r.val) * 512 + l.val < 16777216 := by
  have := lt_of_lt_of_eq t.isLt (show cfg0.N = 16 from N_0)
  have := r.isLt
  have := l.isLt
  omega

/-- The input windows' block indices at point `t`: `(0, t, 0)` and `(t, 0)`, decided over the grid. -/
theorem in_index : ∀ t : Fin cfg0.N, win0_0.index t (0 : Fin 3) = 0 ∧ win0_0.index t (1 : Fin 3) = t.val ∧ win0_0.index t (2 : Fin 3) = 0
    ∧ win0_1.index t (0 : Fin 2) = t.val ∧ win0_1.index t (1 : Fin 2) = 0 :=
  (by decide +kernel : ∀ t : Fin grid0.N, _)

/-- The region finds the distances re-laid as [2, 32768, 512]; -/
theorem V_dist (c : Dev nD) :
    (V m c main_v0 : S2x32768x512.Idx → EReal)
      = shapeCast S2x32768x512 (m ((c : Thread nD τ).loc main_arg0)) shapeCasts_S2x16777216_S2x32768x512 := by
  show StableHlo.after hostOps0 (fun b => m (c, b)) (Proc.devRef .tc main_v0) = _
  after_results
  rfl

/-- and the labels re-laid as [32768, 512]. -/
theorem V_label (c : Dev nD) :
    (V m c main_v1 : S32768x512.Idx → BitVec 32)
      = shapeCast S32768x512 (m ((c : Thread nD τ).loc main_arg1)) shapeCasts_S16777216_S32768x512 := by
  show StableHlo.after hostOps0 (fun b => m (c, b)) (Proc.devRef .tc main_v1) = _
  after_results
  rfl

/-- Entry `(a, r, l)` of point `t`'s distance block. -/
theorem dist_entry (c : Dev nD) (t : Fin cfg0.N) (a : Fin 2) (r : Fin 2048) (l : Fin 512) :
    dblk m c t (ix3 a r l)
      = m ((c : Thread nD τ).loc main_arg0) (ix2 a ⟨(t.val * 2048 + r.val) * 512 + l.val, sample_lt t r l⟩) := by
  obtain ⟨e0, e1, e2, -, -⟩ := in_index t
  show V m c main_v0 (((cfg0.win 0).blk t).view.emb (ix3 a r l)) = _
  rw [V_dist]
  refine shapeCast_apply _ _ _ _ ?_
  show (S2x16777216.rowMajor (ix2 a ⟨(t.val * 2048 + r.val) * 512 + l.val, sample_lt t r l⟩)).val
    = (S2x32768x512.rowMajor (((cfg0.win 0).blk t).view.emb (ix3 a r l))).val
  rw [Shape.rowMajor_val_two, Shape.rowMajor_val_three]
  show a.val * 16777216 + ((t.val * 2048 + r.val) * 512 + l.val)
    = ((win0_0.index t (0 : Fin 3) * 2 + 1 * a.val) * 32768 + (win0_0.index t (1 : Fin 3) * 2048 + 1 * r.val)) * 512
      + (win0_0.index t (2 : Fin 3) * 512 + 1 * l.val)
  rw [e0, e1, e2]
  omega

/-- Entry `(r, l)` of point `t`'s label block. -/
theorem label_entry (c : Dev nD) (t : Fin cfg0.N) (r : Fin 2048) (l : Fin 512) :
    lblk m c t (ix2 r l)
      = m ((c : Thread nD τ).loc main_arg1) (ix1 ⟨(t.val * 2048 + r.val) * 512 + l.val, sample_lt t r l⟩) := by
  obtain ⟨-, -, -, e3, e4⟩ := in_index t
  show V m c main_v1 (((cfg0.win 1).blk t).view.emb (ix2 r l)) = _
  rw [V_label]
  refine shapeCast_apply _ _ _ _ ?_
  show (S16777216.rowMajor (ix1 ⟨(t.val * 2048 + r.val) * 512 + l.val, sample_lt t r l⟩)).val
    = (S32768x512.rowMajor (((cfg0.win 1).blk t).view.emb (ix2 r l))).val
  rw [Shape.rowMajor_val_one, Shape.rowMajor_val_two]
  show (t.val * 2048 + r.val) * 512 + l.val
    = (win0_1.index t (0 : Fin 2) * 2048 + 1 * r.val) * 512 + (win0_1.index t (1 : Fin 2) * 512 + 1 * l.val)
  rw [e3, e4]
  omega

/-- Row 0 of a distance block at `(0, r, l)` is the block at `(0, r, l)`; -/
theorem rowZero_entry (x0 : Vec Ideal S2x2048x512 .f32) (r : Fin 2048) (l : Fin 512) :
    rowZero x0 (ix3 (0 : Fin 1) r l) = x0 (ix3 (0 : Fin 2) r l) := by
  show x0 _ = x0 _
  refine congrArg x0 (funext fun a => Fin.ext ?_)
  match a with
  | ⟨0, _⟩ => rfl
  | ⟨1, _⟩ => show 0 + 1 * r.val = r.val; omega
  | ⟨2, _⟩ => show 0 + 1 * l.val = l.val; omega

/-- row 1 at `(0, r, l)` is the block at `(1, r, l)`. -/
theorem rowOne_entry (x0 : Vec Ideal S2x2048x512 .f32) (r : Fin 2048) (l : Fin 512) :
    rowOne x0 (ix3 (0 : Fin 1) r l) = x0 (ix3 (1 : Fin 2) r l) := by
  show x0 _ = x0 _
  refine congrArg x0 (funext fun a => Fin.ext ?_)
  match a with
  | ⟨0, _⟩ => rfl
  | ⟨1, _⟩ => show 0 + 1 * r.val = r.val; omega
  | ⟨2, _⟩ => show 0 + 1 * l.val = l.val; omega

/-- A point's column loss at lane `l`: the losses of the 2048 samples of its block in that lane. -/
theorem colLoss_eq (c : Dev nD) (t : Fin cfg0.N) (l : Fin 512) :
    colLoss m c t l
      = ∑ r : Fin 2048, Cert.Loss.sampleLoss
          (m ((c : Thread nD τ).loc main_arg0) (ix2 (0 : Fin 2) ⟨(t.val * 2048 + r.val) * 512 + l.val, sample_lt t r l⟩))
          (m ((c : Thread nD τ).loc main_arg0) (ix2 (1 : Fin 2) ⟨(t.val * 2048 + r.val) * 512 + l.val, sample_lt t r l⟩))
          (m ((c : Thread nD τ).loc main_arg1) (ix1 ⟨(t.val * 2048 + r.val) * 512 + l.val, sample_lt t r l⟩)) := by
  unfold colLoss
  refine Finset.sum_congr rfl fun r _ => ?_
  rw [rowZero_entry, rowOne_entry, dist_entry, dist_entry, label_entry]
  rfl

end Cert.KernelIdeal.Blocks

end
-- ==== Proof.SumBlocks.lean ====
/-
  A sum over the 16,777,216 samples, block by block.

  The samples are laid out as 16 blocks of 2048 rows of 512 lanes: sample `(t · 2048 + r) · 512 + l` is lane `l` of row
  `r` of block `t`.  Every number below `a · b` is `p · b + q` for exactly one `p < a` and `q < b`, so a sum over
  `Fin (a · b)` is a double sum; applied twice, a sum over all samples is a triple sum over blocks, rows and lanes.
-/
import Mathlib.Algebra.BigOperators.Fin
import Mathlib.Logic.Equiv.Fin.Basic
import Mathlib.Algebra.BigOperators.Group.Finset.Sigma

namespace Cert.SumBlocks

open scoped BigOperators

/-- A sum over `Fin (a * b)` of a function of the number is the double sum over quotient and remainder. -/
theorem sum_fin_mul {M : Type*} [AddCommMonoid M] (a b : ℕ) (g : ℕ → M) :
    ∑ j : Fin (a * b), g j.val = ∑ p : Fin a, ∑ q : Fin b, g (p.val * b + q.val) := by
  rw [← Equiv.sum_comp finProdFinEquiv (fun j : Fin (a * b) => g j.val), Fintype.sum_prod_type]
  refine Finset.sum_congr rfl fun p _ => Finset.sum_congr rfl fun q _ => ?_
  show g (q.val + b * p.val) = _
  rw [Nat.add_comm, Nat.mul_comm]

/-- A sum over all samples is the sum over blocks, rows and lanes. -/
theorem sum_blocks {M : Type*} [AddCommMonoid M] (f : ℕ → M) :
    ∑ j : Fin 16777216, f j.val
      = ∑ t : Fin 16, ∑ r : Fin 2048, ∑ l : Fin 512, f ((t.val * 2048 + r.val) * 512 + l.val) := by
  have h1 : ∑ j : Fin 16777216, f j.val = ∑ j : Fin (16 * 2048 * 512), f j.val := rfl
  rw [h1, sum_fin_mul (16 * 2048) 512 f, sum_fin_mul 16 2048 (fun p => ∑ l : Fin 512, f (p * 512 + l.val))]

end Cert.SumBlocks
-- ==== Proof.KernelTotal.lean ====
/-
  The returned scalar is zero plus the total loss.

  Within core `q` the accumulator after inner step `k` is, lane by lane, `0` plus the column losses of points
  `8q … 8q + k` (induction on the inner step), so the core's total is the sum over lanes, inner steps and rows of the
  sample losses of its eight blocks.  The two cores' totals added are the sum over all 16 blocks, rows and lanes;
  and sample `(t · 2048 + r) · 512 + l` runs over every sample exactly once as block, row and lane run over their
  ranges.  Sums of extended reals commute and re-associate freely, so the order in which the kernel adds is immaterial.
-/
import proofs.«402410_j9878424781365_3_alg».proof.Proof.KernelResult
import proofs.«402410_j9878424781365_3_alg».proof.Proof.KernelBlocks
import proofs.«402410_j9878424781365_3_alg».proof.Proof.Spec
import proofs.«402410_j9878424781365_3_alg».proof.Proof.SumBlocks
import Idealize.ShloMosaic.Lib.ValueIdxRank1
import Idealize.ShloMosaic.PureOps.Ideal.Laws

set_option maxRecDepth 16384

noncomputable section

open Idealize.ShloMosaic Idealize.ShloMosaic.TcCoe Idealize.SL.Sem Idealize.ShloMosaic.ValueIdx

namespace Cert.KernelIdeal.Total

open Cert.KernelIdeal Cert.KernelIdeal.Gen Cert.KernelIdeal.Accum Cert.KernelIdeal.Result Cert.KernelIdeal.Blocks

variable (m : (ℓ : Loc nD τ sig) → Buf (Elt Ideal) ℓ)

/-- The loss of sample number `s` of the argument arrays (`0` past the last sample: never summed). -/
def lossNat (c : Dev nD) (s : ℕ) : EReal :=
  if h : s < 16777216 then
    Cert.Loss.sampleLoss (m ((c : Thread nD τ).loc main_arg0) (ix2 (0 : Fin 2) ⟨s, h⟩))
      (m ((c : Thread nD τ).loc main_arg0) (ix2 (1 : Fin 2) ⟨s, h⟩)) (m ((c : Thread nD τ).loc main_arg1) (ix1 ⟨s, h⟩))
  else 0

/-- Point number `n`'s column loss (`0` past the last point: never summed). -/
def colNat (c : Dev nD) (n : ℕ) (l : Fin 512) : EReal := if h : n < cfg0.N then colLoss m c ⟨n, h⟩ l else 0

/-- A point's column loss is the sum over its rows of the sample losses. -/
theorem colNat_eq (c : Dev nD) (n : ℕ) (hn : n < 16) (l : Fin 512) :
    colNat m c n l = ∑ r : Fin 2048, lossNat m c ((n * 2048 + r.val) * 512 + l.val) := by
  have h : n < cfg0.N := lt_of_lt_of_eq hn (show cfg0.N = 16 from N_0).symm
  unfold colNat
  rw [dif_pos h, colLoss_eq]
  refine Finset.sum_congr rfl fun r _ => ?_
  have h' : (n * 2048 + r.val) * 512 + l.val < 16777216 := sample_lt ⟨n, h⟩ r l
  unfold lossNat
  rw [dif_pos h']

/-- At a first inner step the accumulator is that point's column loss over zero; -/
theorem acc_first (c : Dev nD) (n : ℕ) (h : n < cfg0.N) (h0 : n % 8 = 0) (l : Fin 512) :
    acc m c n h l = 0 + colNat m c n l := by
  have e : colNat m c n l = colLoss m c ⟨n, h⟩ l := dif_pos h
  rw [e]
  cases n with
  | zero => rfl
  | succ n =>
    show (if (n + 1) % 8 = 0 then 0 + colLoss m c ⟨n + 1, h⟩ l else acc m c n (Nat.lt_of_succ_lt h) l + colLoss m c ⟨n + 1, h⟩ l) = _
    rw [if_pos h0]

/-- at a later one, the point's column loss over the accumulator before. -/
theorem acc_next (c : Dev nD) (n : ℕ) (h : n + 1 < cfg0.N) (h0 : ¬(n + 1) % 8 = 0) (l : Fin 512) :
    acc m c (n + 1) h l = acc m c n (Nat.lt_of_succ_lt h) l + colNat m c (n + 1) l := by
  have e : colNat m c (n + 1) l = colLoss m c ⟨n + 1, h⟩ l := dif_pos h
  rw [e]
  show (if (n + 1) % 8 = 0 then 0 + colLoss m c ⟨n + 1, h⟩ l else acc m c n (Nat.lt_of_succ_lt h) l + colLoss m c ⟨n + 1, h⟩ l) = _
  rw [if_neg h0]

/-- Within core `q`, after inner step `k` the accumulator is `0` plus the column losses of inner steps `0 … k`. -/
theorem acc_partial (c : Dev nD) (q : Fin 2) (l : Fin 512) : ∀ (k : ℕ) (h : 8 * q.val + k < cfg0.N), k < 8 →
    acc m c (8 * q.val + k) h l = 0 + ∑ k' : Fin (k + 1), colNat m c (8 * q.val + k'.val) l
  | 0, h, _ => by
    rw [acc_first m c (8 * q.val + 0) h (by omega) l, Fin.sum_univ_one]
    rfl
  | k + 1, h, hk => by
    show acc m c ((8 * q.val + k) + 1) h l = _
    rw [acc_next m c (8 * q.val + k) h (by omega) l, acc_partial c q l k (Nat.lt_of_succ_lt h) (by omega)]
    rw [Fin.sum_univ_castSucc (fun k' : Fin (k + 1 + 1) => colNat m c (8 * q.val + k'.val) l), add_assoc]
    rfl

/-- A core's total: the sum over lanes and inner steps of the column losses of its eight points. -/
theorem coreTotal_eq (c : Dev nD) (q : Fin 2) :
    coreTotal m c q = ∑ l : Fin 512, ∑ k : Fin 8, colNat m c (8 * q.val + k.val) l := by
  unfold coreTotal
  refine Finset.sum_congr rfl fun l _ => ?_
  rw [acc_partial m c q l 7 (lastStep_lt q) (by omega), zero_add]

/-- The same, as a sum over inner steps, rows and lanes of sample losses. -/
theorem core_sum (c : Dev nD) (q : Fin 2) :
    ∑ l : Fin 512, ∑ k : Fin 8, colNat m c (8 * q.val + k.val) l
      = ∑ k : Fin 8, ∑ r : Fin 2048, ∑ l : Fin 512, lossNat m c (((q.val * 8 + k.val) * 2048 + r.val) * 512 + l.val) := by
  rw [Finset.sum_comm]
  refine Finset.sum_congr rfl fun k _ => ?_
  have hn : 8 * q.val + k.val < 16 := by have := q.isLt; have := k.isLt; omega
  calc ∑ l : Fin 512, colNat m c (8 * q.val + k.val) l
      = ∑ l : Fin 512, ∑ r : Fin 2048, lossNat m c (((8 * q.val + k.val) * 2048 + r.val) * 512 + l.val) :=
        Finset.sum_congr rfl fun l _ => colNat_eq m c _ hn l
    _ = ∑ r : Fin 2048, ∑ l : Fin 512, lossNat m c (((8 * q.val + k.val) * 2048 + r.val) * 512 + l.val) := Finset.sum_comm
    _ = ∑ r : Fin 2048, ∑ l : Fin 512, lossNat m c (((q.val * 8 + k.val) * 2048 + r.val) * 512 + l.val) := by
        rw [Nat.mul_comm 8 q.val]

/-- The total loss of the argument arrays, block by block: core, inner step, row, lane. -/
theorem total_blocks (c : Dev nD) :
    Cert.Spec.total (m ((c : Thread nD τ).loc main_arg0)) (m ((c : Thread nD τ).loc main_arg1))
      = ∑ q : Fin 2, ∑ k : Fin 8, ∑ r : Fin 2048, ∑ l : Fin 512, lossNat m c (((q.val * 8 + k.val) * 2048 + r.val) * 512 + l.val) := by
  have ht : Cert.Spec.total (m ((c : Thread nD τ).loc main_arg0)) (m ((c : Thread nD τ).loc main_arg1))
      = ∑ j : Fin 16777216, lossNat m c j.val := by
    unfold Cert.Spec.total
    refine Finset.sum_congr rfl fun j _ => ?_
    unfold lossNat
    rw [dif_pos j.isLt]
  rw [ht, Cert.SumBlocks.sum_blocks (lossNat m c)]
  exact Cert.SumBlocks.sum_fin_mul 2 8 (fun n => ∑ r : Fin 2048, ∑ l : Fin 512, lossNat m c ((n * 2048 + r.val) * 512 + l.val))

/-- The lines after the region at their one index: zero plus lane 0 of the two cores' rows. -/
theorem tail_apply (X : FVec Ideal S2x1x128 .f32) (i : S_.Idx) :
    tail X i = 0 + (X (ix3 (0 : Fin 2) (0 : Fin 1) (0 : Fin 128)) + X (ix3 (1 : Fin 2) (0 : Fin 1) (0 : Fin 128))) := by
  have hcast : ∀ q : Fin 2, shapeCast S2 (extractStridedSlice S2x1x1 ![0, 0, 0] X slices_S2x1x128_S2x1x1_0_0_0) shapeCasts_S2x1x1_S2 (ix1 q)
      = X (ix3 q (0 : Fin 1) (0 : Fin 128)) := by
    intro q
    refine (shapeCast_apply _ _ _ (ix3 q (0 : Fin 1) (0 : Fin 1)) ?_).trans ?_
    · rw [Shape.rowMajor_val_three, Shape.rowMajor_val_one]
      show (q.val * 1 + 0) * 1 + 0 = q.val
      omega
    · unfold extractStridedSlice
      refine congrArg X (funext fun a => Fin.ext ?_)
      match a with
      | ⟨0, _⟩ => show 0 + q.val = q.val; omega
      | ⟨1, _⟩ => rfl
      | ⟨2, _⟩ => rfl
  unfold tail
  generalize hY : shapeCast S2 (extractStridedSlice S2x1x1 ![0, 0, 0] X slices_S2x1x128_S2x1x1_0_0_0) shapeCasts_S2x1x1_S2 = Y at hcast
  simp only [Host.reduceAdd, Ideal.hostReduceAdd_def]
  refine (Ideal.hostReduceAdd_total reducesTo_S2_S_d0 (fun b => b.elim0) Y _ i).trans ?_
  have hc : (constant (F := Ideal) S_ .f32 0x00000000#32) (Shape.Idx.first h_S_) = 0 := Cert.Loss.ofBits_zero
  rw [hc, ← Equiv.sum_comp idxEquiv1.symm Y, Fin.sum_univ_two]
  show 0 + (Y (ix1 0) + Y (ix1 1)) = _
  rw [hcast 0, hcast 1]

/-- THE KERNEL'S VALUE: what the program returns is zero plus the total loss of its arguments. -/
theorem returned_total (c : Dev nD) (i : S_.Idx) :
    tail (perCore m c) i
      = 0 + Cert.Spec.total (m ((c : Thread nD τ).loc main_arg0)) (m ((c : Thread nD τ).loc main_arg1)) := by
  have hp : ∀ q : Fin 2, perCore m c (ix3 q (0 : Fin 1) (0 : Fin 128)) = coreTotal m c q := fun q => rfl
  rw [tail_apply, hp 0, hp 1, total_blocks m c, Fin.sum_univ_two, coreTotal_eq, coreTotal_eq, core_sum m c 0, core_sum m c 1]

end Cert.KernelIdeal.Total

end
-- ==== Proof.lean ====
/-
  A two-class margin loss summed over 16,777,216 samples: the kernel against its jnp reference, over the extended reals.

  Sample `j` has two distances, `dist[0, j]` and `dist[1, j]`, and a label `label[j]` that is 0 or 1.  Its POSITIVE
  distance `p` is the one in the row its label names, its NEGATIVE distance `n` the other; with the logits
  `lp = 64 · cos (p + 1/2)` and `ln = 64 · cos n` its loss is `log (1 + exp (ln - lp))`.

  * The reference gathers `p = dist[label, j]` and `n = dist[1 - label, j]` and returns the sum over all samples of
    `logaddexp (lp, ln) - lp`, that is `(max lp ln + log1p (exp (-|lp - ln|))) - lp` (its NaN guard never fires on the
    extended reals).
  * The kernel re-lays the samples as 16 blocks of 2048 rows of 512 lanes, picks `p` and `n` by "label = 0", computes the
    softplus form `max z 0 + log1p (exp (0 - |z|))` with `z = 64 · (cos n - cos (p + 1/2))`, and sums: per lane over a
    block's rows and over a core's eight blocks into a carried accumulator, over the 512 lanes at the core's last
    step, and over the two cores on the host.

  THE PRECONDITION.  Every distance is finite, and every label is 0 or 1.  The second conjunct is the range of the axis
  the reference indexes with `label` and `1 - label`: for any other label one of the two is outside the axis, the gather
  clamps it, and the reference no longer reads the two rows the kernel reads (for instance label 2 makes the reference
  read row 1 for both distances).  Finiteness is what makes the cosines real numbers.

  WHY THE TWO AGREE.  At real distances the cosines are real, so 64 distributes over their difference: `z = ln - lp`,
  `|lp - ln| = |z|` and `max lp ln - lp = max z 0`; the two per-sample forms are one real number (LossLaw.lean).  Under
  labels in {0, 1} both programs read the same `p` and `n` for every sample (RefTotal.lean for the gathers;
  KernelBlocks.lean for the blocks).  Both then add the same 16,777,216 extended reals to the zero constant, in different
  orders and groupings, which a sum over a commutative monoid does not see (KernelTotal.lean, SumBlocks.lean).
  Both programs return `0 + Cert.Spec.total dist label`.

  The three frames are the generated frame certificates of the two kernel programs and the reference's generated run;
  the idealization rewrote nothing, so `preserves` is `True`.
-/
import proofs.«402410_j9878424781365_3_alg».proof.Defs
import proofs.«402410_j9878424781365_3_alg».proof.Proof.Gen.Kernel
import proofs.«402410_j9878424781365_3_alg».proof.Proof.Gen.Kernel.Frame
import proofs.«402410_j9878424781365_3_alg».proof.Proof.Gen.KernelIdeal
import proofs.«402410_j9878424781365_3_alg».proof.Proof.Gen.KernelIdeal.Frame
import proofs.«402410_j9878424781365_3_alg».proof.Proof.Gen.ReferenceIdeal
import proofs.«402410_j9878424781365_3_alg».proof.Proof.Gen.ReferenceIdeal.Run
import proofs.«402410_j9878424781365_3_alg».proof.Proof.Gen.ReferenceIdeal.Read
import proofs.«402410_j9878424781365_3_alg».proof.Proof.Gen.Pre_finite_inputs
import proofs.«402410_j9878424781365_3_alg».proof.Proof.PreFacts
import proofs.«402410_j9878424781365_3_alg».proof.Proof.RefTotal
import proofs.«402410_j9878424781365_3_alg».proof.Proof.KernelResult
import proofs.«402410_j9878424781365_3_alg».proof.Proof.KernelTotal
import Idealize.ShloMosaic.Adequacy
import Idealize.ShloMosaic.Init

noncomputable section

namespace Cert.Proof

open Idealize.ShloMosaic Idealize.SL.Sem

/-- The kernel as printed runs and leaves its arguments as they were: its generated frame certificate. -/
theorem frame_kernel : Cert.frame_Kernel := fun m ρ _ => Cert.Kernel.Gen.frame m ρ

/-- The idealized kernel likewise. -/
theorem frame_kernelIdeal : Cert.frame_KernelIdeal := fun m ρ _ => Cert.KernelIdeal.Gen.frame m ρ

/-- The reference runs and leaves its arguments as they were: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on finite distances and labels in {0, 1}, both programs end with `0 + total` of them. -/
theorem algebraic : Cert.algebraic_KernelIdeal_ReferenceIdeal := by
  intro m ρ m' ρ' hpre hagree
  refine ⟨fun c => Cert.KernelIdeal.Result.tail (Cert.KernelIdeal.Result.perCore m c), Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v50_eq, (hagree c).1, (hagree c).2]
  funext i
  rw [Cert.ReferenceIdeal.RefValue.ref_total _ _ (Cert.PreFacts.finite_of_pre _ _ (hpre c)) (Cert.PreFacts.labels_of_pre _ _ (hpre c)) i]
  exact (Cert.KernelIdeal.Total.returned_total m c i).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
